-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096x4096 : Shape := ⟨2, ![4096, 4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x768 .f32) (main_arg1 : FVec F S4096x4096 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x768 : Shape := ⟨2, ![4096, 768]⟩
abbrev S4096x4096 : Shape := ⟨2, ![4096, 4096]⟩
abbrev S1x1 : Shape := ⟨2, ![1, 1]⟩
abbrev S512x768 : Shape := ⟨2, ![512, 768]⟩
abbrev S512x512 : Shape := ⟨2, ![512, 512]⟩
abbrev S768x512 : Shape := ⟨2, ![768, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S4096x768, .f32⟩
  | .hbm, ⟨1, _⟩ => ⟨S4096x4096, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x512, .f32⟩
  | .local _ .vmem, ⟨5, _⟩ => ⟨S512x512, .f32⟩
  | .local _ .vmem, ⟨6, _⟩ => ⟨S1x1, .f32⟩
  | .local _ .vmem, ⟨7, _⟩ => ⟨S1x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v47 : BitVec 1 := Scalar.cmpi .eq arg0 c7_i32
  let arg1 : BitVec 32 := BitVec.ofNat 32 (i 1).val
  let c7_i32_18 : BitVec 32 := 7#32
  let v48 : BitVec 1 := Scalar.cmpi .eq arg1 c7_i32_18
  let v49 : BitVec 1 := Scalar.andi v47 v48
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x768_S512x768_0_0 : ∀ a, (![0, 0] : Fin 2 → Nat) a + S512x768.size a ≤ S512x768.size a
  h_S512x768 : 0 < S512x768.numel
  bitsLt_bf16_f32 : FTy.bits .bf16 < FTy.bits .f32
  transposes_S512x768_p1_0_S768x512 : S512x768.Transposes [1, 0] S768x512
  reduces_S512x768_S512 : S512x768.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S4096x768.size a
  hwx0_1 : ∀ i : grid0.Coords, EltTy.bits .f32 = 32 ∨ (Rect.block (s := S4096x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x768 : Shape := ⟨2, ![4096, 768]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x4096, .f32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x768_S4096x768_S4096x4096_1_1_0_0_n_n_wf : DotDims.WF S4096x768 S4096x768 S4096x4096 [1] [1] [0] [0] [] []

variable [Facts₀]

def dot_S4096x768_S4096x768_S4096x4096_1_1_0_0_n_n : DotDims S4096x768 S4096x768 S4096x4096 where
  lhsContracting := [1]
  rhsContracting := [1]
  lhsNonContracting := [0]
  rhsNonContracting := [0]
  lhsBatch := []
  rhsBatch := []
  wf := dot_S4096x768_S4096x768_S4096x4096_1_1_0_0_n_n_wf

class Facts : Prop extends Facts₀ where

variable [Facts]
-- ==== Proof.Spec.lean ====
/-
  The quantity both programs compute, over the extended reals.

  For an embedding table e (4096 rows of 768 numbers) and a table a of target distances (4096 × 4096):
  the squared distance of rows r and c is written through the Gram matrix, ‖e_r‖² + ‖e_c‖² − 2·⟨e_r, e_c⟩;
  the loss of the pair (r, c) is the square of its difference from a(r, c); the result is the sum of the
  pair losses over the ordered pairs r ≠ c, divided by the number of such pairs, 4096 · 4095.
-/
import Idealize.ShloMosaic.PureOps.Ideal
import Idealize.ShloMosaic.Lib.ValueIdx

noncomputable section

open scoped BigOperators

namespace Cert.Spec

open Idealize.ShloMosaic Idealize.ShloMosaic.ValueIdx

/-- The embedding table: 4096 rows of 768 extended reals. -/
abbrev Emb : Type := (⟨2, ![4096, 768]⟩ : Shape).Idx → EReal
/-- The target distances: one extended real per ordered pair of rows. -/
abbrev Dist : Type := (⟨2, ![4096, 4096]⟩ : Shape).Idx → EReal

/-- ‖e_r‖²: the sum of the squares of row r. -/
def sqNorm (e : Emb) (r : Fin 4096) : EReal := ∑ k : Fin 768, e (ix2 r k) * e (ix2 r k)

/-- ⟨e_r, e_c⟩: the Gram matrix's entry. -/
def gram (e : Emb) (r c : Fin 4096) : EReal := ∑ k : Fin 768, e (ix2 r k) * e (ix2 c k)

/-- The factor 2 of the cross term, as both programs spell it. -/
def two : EReal := Ideal.ofBits .f32 0x40000000#32

/-- The squared distance of rows r and c less the target distance. -/
def residual (e : Emb) (a : Dist) (r c : Fin 4096) : EReal :=
  (sqNorm e r + sqNorm e c) - two * gram e r c - a (ix2 r c)

/-- The loss of the ordered pair (r, c). -/
def pairLoss (e : Emb) (a : Dist) (r c : Fin 4096) : EReal := residual e a r c * residual e a r c

/-- The pair loss off the diagonal, nothing on it. -/
def offDiag (e : Emb) (a : Dist) (r c : Fin 4096) : EReal := if r = c then 0 else pairLoss e a r c

/-- The sum of the pair losses over all ordered pairs of distinct rows. -/
def total (e : Emb) (a : Dist) : EReal := ∑ r : Fin 4096, ∑ c : Fin 4096, offDiag e a r c

/-- The number of ordered pairs of distinct rows, 4096 · 4095 = 16773120, as both programs spell it. -/
def pairCount : EReal := Ideal.ofBits .f32 0x4B7FF000#32

/-- The mean pair loss. -/
def meanLoss (e : Emb) (a : Dist) : EReal := Ideal.div (total e a) pairCount

end Cert.Spec

end
-- ==== Proof.RefIsSpec.lean ====
/-
  The reference computes the specification's mean loss.

  Read at one index, the reference's stages are, in order: the row sums of squares ‖e_r‖² (a sum that starts from the
  zero word, which is the real zero); the Gram entry ⟨e_r, e_c⟩; their combination
  ‖e_r‖² + ‖e_c‖² − 2·⟨e_r, e_c⟩ − a(r, c), the residual, and its square, the pair loss; a mask 1 − [r = c], where
  [r = c] is the one-bit comparison of the row number with the column number read as a number; and the product of pair
  loss and mask, which is the pair loss off the diagonal and zero on it. The sum over all index pairs of that product is
  the double sum over rows and columns, and the last stage divides it by the pair count.
-/
import proofs.«181517_j23407571763518_1_alg».proof.Proof.Gen.ReferenceIdeal.Read
import proofs.«181517_j23407571763518_1_alg».proof.Proof.Spec
import Idealize.ShloMosaic.Lib.IdealHost

noncomputable section

open scoped BigOperators

namespace Cert.RefValue

open Cert.ReferenceIdeal Cert.ReferenceIdeal.Read Idealize.ShloMosaic Idealize.ShloMosaic.ValueIdx Cert.Spec

/-- The embedding table as the reference takes it. -/
abbrev EmbArr : Type := (⟨S4096x768, .f32⟩ : BufTy).Contents (Elt Ideal)
/-- The target distances as the reference takes them. -/
abbrev DistArr : Type := (⟨S4096x4096, .f32⟩ : BufTy).Contents (Elt Ideal)

/-- The row sum at r is ‖e_r‖²: the sum starts from the zero word, which adds nothing, and its k-th term is the
    square of the entry (r, k). -/
theorem rowSum_at (x0 : EmbArr) (r : Fin 4096) :
    val_main_v1 (F := Ideal) x0 (ix1 r) = sqNorm x0 r := by
  have e : ∀ k : Fin 768, idx_main_v1 (ix1 r) k = ix2 r k := fun k =>
    funext fun a => Fin.ext (by match a with | ⟨0, _⟩ => rfl | ⟨1, _⟩ => rfl)
  rw [val_main_v1_apply, val_main_cst_apply, Ideal.ofBits_def, Ideal.ofBits_zero_f32, zero_add]
  unfold sqNorm
  refine Finset.sum_congr rfl fun k _ => ?_
  rw [val_main_v0_apply, Ideal.mulf_def, e k]

/-- The contraction at (r, c) is the Gram entry ⟨e_r, e_c⟩: its k-th term is entry (r, k) times entry (c, k). -/
theorem gram_at (x0 : EmbArr) (r c : Fin 4096) :
    val_main_v2 (F := Ideal) x0 (ix2 r c) = gram x0 r c := by
  have el : ∀ k : Fin 768, lidx_main_v2 (ix2 r c) k = ix2 r k := fun k =>
    funext fun a => Fin.ext (by match a with | ⟨0, _⟩ => rfl | ⟨1, _⟩ => rfl)
  have er : ∀ k : Fin 768, ridx_main_v2 (ix2 r c) k = ix2 c k := fun k =>
    funext fun a => Fin.ext (by match a with | ⟨0, _⟩ => rfl | ⟨1, _⟩ => rfl)
  rw [val_main_v2_apply]
  unfold gram
  refine Finset.sum_congr rfl fun k _ => ?_
  rw [el k, er k]

/-- The column of row sums spread along the rows plus the row of row sums spread along the columns: at (r, c) it is
    ‖e_r‖² + ‖e_c‖². -/
theorem normSum_at (x0 : EmbArr) (r c : Fin 4096) :
    val_main_v7 (F := Ideal) x0 (ix2 r c) = sqNorm x0 r + sqNorm x0 c := by
  have e5 : idx_main_v3 (idx_main_v5 (ix2 r c)) = ix1 r :=
    funext fun a => Fin.ext (by match a with | ⟨0, _⟩ => rfl)
  have e6 : idx_main_v4 (idx_main_v6 (ix2 r c)) = ix1 c :=
    funext fun a => Fin.ext (by match a with | ⟨0, _⟩ => rfl)
  rw [val_main_v7_apply, val_main_v5_apply, val_main_v3_apply, val_main_v6_apply, val_main_v4_apply,
    Ideal.addf_def, e5, e6, rowSum_at, rowSum_at]

/-- The cross term at (r, c): the factor two, kept as its word, times the Gram entry. -/
theorem cross_at (x0 : EmbArr) (r c : Fin 4096) :
    val_main_v9 (F := Ideal) x0 (ix2 r c) = two * gram x0 r c := by
  rw [val_main_v9_apply, val_main_v8_apply, val_main_cst_0_apply, Ideal.ofBits_def, Ideal.mulf_def, gram_at]
  rfl

/-- The squared distance less the target distance, at (r, c). -/
theorem residual_at (x0 : EmbArr) (x1 : DistArr) (r c : Fin 4096) :
    val_main_v19 (F := Ideal) x0 x1 (ix2 r c) = residual x0 x1 r c := by
  rw [val_main_v19_apply, val_main_v10_apply, Ideal.subf_def, Ideal.subf_def, normSum_at, cross_at]
  rfl

/-- Its square is the pair loss. -/
theorem pairLoss_at (x0 : EmbArr) (x1 : DistArr) (r c : Fin 4096) :
    val_main_v20 (F := Ideal) x0 x1 (ix2 r c) = pairLoss x0 x1 r c := by
  rw [val_main_v20_apply, Ideal.mulf_def, residual_at]
  rfl

/-- The comparison bit of the row number (plus the zero word) with the column number: row and column numbers are
    below 4096, so their 32-bit words are equal exactly when the numbers are. -/
theorem diagBit (r c : Fin 4096) :
    IntOp.cmpi .eq (IntOp.addi (BitVec.ofNat 32 r.val) 0#32) (BitVec.ofNat 32 c.val)
      = if r = c then 1#1 else 0#1 := by
  unfold IntOp.addi
  rw [BitVec.add_zero]
  split
  · next h => subst h; exact IntOp.cmpi_eq.mpr rfl
  · next h =>
    apply eq_zero_of_ne_one
    rw [IntOp.cmpi_eq]
    intro e
    apply h
    have e' := congrArg BitVec.toNat e
    simp only [BitVec.toNat_ofNat] at e'
    have hr := r.isLt
    have hc := c.isLt
    apply Fin.ext
    omega

/-- The mask 1 − [r = c]: the word of one is the real one, the bit read as a number is 1 on the diagonal (1 − 1 = 0,
    both finite) and 0 off it (1 − 0 = 1). -/
theorem offMask_at (r c : Fin 4096) :
    val_main_v18 (F := Ideal) (ix2 r c) = if r = c then 0 else 1 := by
  rw [val_main_v18_apply, val_main_v17_apply, val_main_cst_1_apply, val_main_v16_apply, val_main_v15_apply,
    val_main_v14_apply, val_main_v13_apply, val_main_c_apply, val_main_v11_apply, val_main_v12_apply,
    Ideal.ofBits_def, Ideal.ofBits_one_f32, Ideal.subf_def]
  show (1 : EReal) - FloatOps.uitofp (F := Ideal) .f32
    (IntOp.cmpi .eq (IntOp.addi (BitVec.ofNat 32 r.val) 0#32) (BitVec.ofNat 32 c.val)) = _
  rw [diagBit]
  split
  · show (1 : EReal) - (((1#1 : BitVec 1).toNat : ℝ) : EReal) = 0
    have h1 : (((1#1 : BitVec 1).toNat : ℝ) : EReal) = ((1 : ℝ) : EReal) := by simp
    rw [h1, ← EReal.coe_one]
    exact EReal.sub_self (EReal.coe_ne_top 1) (EReal.coe_ne_bot 1)
  · show (1 : EReal) - (((0#1 : BitVec 1).toNat : ℝ) : EReal) = 1
    simp

/-- Pair loss times mask: x · 0 = 0 on the diagonal, x · 1 = x off it (both hold for every extended real). -/
theorem offDiag_at (x0 : EmbArr) (x1 : DistArr) (r c : Fin 4096) :
    val_main_v21 (F := Ideal) x0 x1 (ix2 r c) = offDiag x0 x1 r c := by
  rw [val_main_v21_apply, Ideal.mulf_def, pairLoss_at, offMask_at]
  unfold offDiag
  split
  · exact mul_zero _
  · exact mul_one _

/-- The sum over all index pairs, started from the zero word, is the double sum over rows and columns of the
    off-diagonal pair losses. -/
theorem total_eq (x0 : EmbArr) (x1 : DistArr) (i : S_.Idx) :
    val_main_v22 (F := Ideal) x0 x1 i = total x0 x1 := by
  rw [val_main_v22_apply, val_main_cst_2_apply, Ideal.ofBits_def, Ideal.ofBits_zero_f32, zero_add, sum_idx2]
  unfold total
  exact Finset.sum_congr rfl fun r _ => Finset.sum_congr rfl fun c _ => offDiag_at x0 x1 r c

/-- The reference's last stage holds the mean loss: the total divided by the pair count, kept as its word. -/
theorem ref_eq (x0 : (⟨Cert.ReferenceIdeal.S4096x768, .f32⟩ : BufTy).Contents (Elt Ideal))
    (x1 : (⟨Cert.ReferenceIdeal.S4096x4096, .f32⟩ : BufTy).Contents (Elt Ideal)) :
    Cert.ReferenceIdeal.Read.val_main_v23 (F := Ideal) x0 x1 = fun _ => Cert.Spec.meanLoss x0 x1 := by
  funext i
  rw [val_main_v23_apply, Ideal.hostDivf_def, total_eq, val_main_cst_3_apply, Ideal.ofBits_def]
  rfl

end Cert.RefValue

end
-- ==== Proof.KDefs.lean ====
/-
  What the kernel accumulates, as pure functions of the two argument arrays (for every float instance).

  Grid point t = 8·I + J works on the 512 × 512 tile (I, J) of the pair matrix: it reads rows 512·I … of the
  embedding table twice over (once as the tile's rows, once — rows 512·J … — as its columns) and the tile (I, J)
  of the target distances, and adds the tile's sum of off-diagonal pair losses to a running 1 × 1 accumulator,
  which the first point resets to zero and the last point copies to the result.
-/
import proofs.«181517_j23407571763518_1_alg».proof.Proof.Gen.KernelIdeal.Skeleton
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- Rows 512·I … 512·I + 511 of the embedding table. -/
def rowBlock (e : Vec F S4096x768 .f32) (I : Fin 8) : Vec F S512x768 .f32 :=
  fun j => e (ix2 (⟨I.val * 512 + (j 0).val, by have := idx2_lt0 j; omega⟩ : Fin 4096) (⟨(j 1).val, idx2_lt1 j⟩ : Fin 768))

/-- The tile (I, J) of the target distances. -/
def distTile (a : Vec F S4096x4096 .f32) (I J : Fin 8) : Vec F S512x512 .f32 :=
  fun j => a (ix2 (⟨I.val * 512 + (j 0).val, by have := idx2_lt0 j; omega⟩ : Fin 4096) (⟨J.val * 512 + (j 1).val, by have := idx2_lt1 j; omega⟩ : Fin 4096))

/-- The row sums of the masked pair losses of the tile at grid coordinates i, as the body computes them. -/
def tileRows (e : Vec F S4096x768 .f32) (a : Vec F S4096x4096 .f32) (i : grid0.Coords) : FVec F S512x1 .f32 :=
  k0_pay3 i (rowBlock e (i 0)) (rowBlock e (i 1)) (distTile a (i 0) (i 1))

/-- The accumulator after the first n grid points: zero, then each point's tile sum added in grid order. -/
def accAt (e : Vec F S4096x768 .f32) (a : Vec F S4096x4096 .f32) : Nat → FVec F S1x1 .f32
  | 0 => k0_pay2
  | n + 1 => if h : n < grid0.N then k0_pay1 (tileRows e a (grid0.coords ⟨n, h⟩)) (accAt e a n) else accAt e a n

end Cert.KernelIdeal.Hand

end
-- ==== Proof.FrameDefs.lean ====
/-
  The pipeline of the kernel's one region, seen from a grid point: the arrays as the region finds them, each
  window's block at a point, the two conditions the body branches on (is this the first point? the last?) in
  closed form over the 64 points, and the staging memrefs the body is called with.
-/
import proofs.«181517_j23407571763518_1_alg».proof.Proof.Gen.KernelIdeal.Launch
import proofs.«181517_j23407571763518_1_alg».proof.Proof.Gen.KernelIdeal.Skeleton
import proofs.«181517_j23407571763518_1_alg».proof.Proof.Gen.KernelIdeal.Points
import proofs.«181517_j23407571763518_1_alg».proof.Proof.KDefs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the region is @main's first line). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the last fetch, and the body leaves the buffer as it found it. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first grid point": both coordinates zero, as the body's scalar chain computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": both coordinates seven. -/
abbrev isLast (i : grid0.Coords) : Prop := k0_cond2 i = 1#1

/-- Over the grid, run row-major, the first condition holds at point 0 only and the second at point 63 only. -/
theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 63 :=
  (by decide +kernel : ∀ t : Fin grid0.N, isLast (grid0.coords t) ↔ t.val = 63)

/-! ## The memrefs the body is called with -/

abbrev ms0 (t : Fin cfg0.N) : Memref sig .tc .vmem S512x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The accumulator: the kernel's one scratch buffer, which no window stages. -/
abbrev accM : Memref sig .tc .vmem S1x1 .f32 := Memref.whole cc0_scratch0
/-- A view through which 1×1 contents are stated. -/
abbrev V11 : View sig .tc .vmem S1x1 .f32 := (Memref.whole cc0_scratch0 : Memref sig .tc .vmem S1x1 .f32).view

end Cert.KernelIdeal.Hand

end
-- ==== Proof.Runs.lean ====
/-
  The kernel body run once, in each of the three situations a grid point can be in.

  At the FIRST point the body zeroes the accumulator, then adds the tile's sum to it; at a MIDDLE point it only adds;
  at the LAST point it adds and then copies the accumulator to the result's staging buffer. In each case the input
  blocks are only read, and what the accumulator (and, at the last point, the result's buffer) ends holding is
  recorded as the list of stores made into it, latest first.
-/
import proofs.«181517_j23407571763518_1_alg».proof.Proof.FrameDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the first point (the reset taken, the final copy not): the inputs' buffers are handed back as they
    were, the result's buffer untouched, the accumulator with its stores — the zero, then the sum — written. -/
noncomputable def runFirst (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole) (hc1 : isFirst i) (hc2 : ¬isLast i)
    (x0 : Vec F S512x768 .f32) (x1 : Vec F S512x768 .f32) (x2 : Vec F S512x512 .f32) :
    { L : List (View.Piece (Elt F) S1x1 .f32) //
      ∀ (y : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun y E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, Hk⟩
    obtain rfl := harg2.eq_unread hf0
    obtain rfl := harg3.eq_unread hf1
    obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    iexists _; iexact H6

/-- The body at a middle point (neither the reset nor the final copy taken): the accumulator, found at xs, gets
    the one store of xs plus the tile's sum. -/
noncomputable def runMiddle (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole) (hc1 : ¬isFirst i) (hc2 : ¬isLast i)
    (x0 : Vec F S512x768 .f32) (x1 : Vec F S512x768 .f32) (x2 : Vec F S512x512 .f32) (xs : Vec F S1x1 .f32) :
    { L : List (View.Piece (Elt F) S1x1 .f32) //
      ∀ (y : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare y
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun y E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f6, %hf6, H6⟩, Hk⟩
    obtain rfl := harg2.eq_unread hf0
    obtain rfl := harg3.eq_unread hf1
    obtain rfl := harg4.eq_unread hf2
    obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    iexists _; iexact H6

/-- The body at the last point (no reset; the final copy taken): the accumulator gets its one store, and the
    result's buffer, found at anything, the store of the accumulator's new contents. -/
noncomputable def runLast (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole) (hc1 : ¬isFirst i) (hc2 : isLast i)
    (x0 : Vec F S512x768 .f32) (x1 : Vec F S512x768 .f32) (x2 : Vec F S512x512 .f32) (xs : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%f6, %hf6, H6⟩, Hk⟩
    obtain rfl := harg2.eq_unread hf0
    obtain rfl := harg3.eq_unread hf1
    obtain rfl := harg4.eq_unread hf2
    obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

end Cert.KernelIdeal.Hand

end
-- ==== Proof.Pieces.lean ====
/-
  What the body's stores leave behind, read back as values.

  A 1×1 buffer is covered by any one whole store into it, so after a run its contents are those of the latest store:
  the accumulator ends at (what it held, or zero at the first point) plus the tile's sum, and at the last point the
  result's buffer ends at the accumulator's new contents.
-/
import proofs.«181517_j23407571763518_1_alg».proof.Proof.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

section
variable (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole)
variable (x0 : Vec F S512x768 .f32) (x1 : Vec F S512x768 .f32) (x2 : Vec F S512x512 .f32) (xs : Vec F S1x1 .f32)

/-- The stores of each case cover the 1×1 buffer they go into. -/
theorem coverFirst (hc1 : isFirst i) (hc2 : ¬isLast i) (y : S1x1.Idx) :
    ∃ pc ∈ (runFirst c i arg2 harg2 arg3 harg3 arg4 harg4 arg5 harg5 arg6 harg6 hc1 hc2 x0 x1 x2).1, y ∈ pc.1.set :=
  View.cover_of_tiledL (runFirst c i arg2 harg2 arg3 harg3 arg4 harg4 arg5 harg5 arg6 harg6 hc1 hc2 x0 x1 x2).1 S1x1.size (by sl_kernel_rfl) y
theorem coverMiddle (hc1 : ¬isFirst i) (hc2 : ¬isLast i) (y : S1x1.Idx) :
    ∃ pc ∈ (runMiddle c i arg2 harg2 arg3 harg3 arg4 harg4 arg5 harg5 arg6 harg6 hc1 hc2 x0 x1 x2 xs).1, y ∈ pc.1.set :=
  View.cover_of_tiledL (runMiddle c i arg2 harg2 arg3 harg3 arg4 harg4 arg5 harg5 arg6 harg6 hc1 hc2 x0 x1 x2 xs).1 S1x1.size (by sl_kernel_rfl) y
theorem coverLastOut (hc1 : ¬isFirst i) (hc2 : isLast i) (y : S1x1.Idx) :
    ∃ pc ∈ (runLast c i arg2 harg2 arg3 harg3 arg4 harg4 arg5 harg5 arg6 harg6 hc1 hc2 x0 x1 x2 xs).1, y ∈ pc.1.set :=
  View.cover_of_tiledL (runLast c i arg2 harg2 arg3 harg3 arg4 harg4 arg5 harg5 arg6 harg6 hc1 hc2 x0 x1 x2 xs).1 S1x1.size (by sl_kernel_rfl) y
theorem coverLastAcc (hc1 : ¬isFirst i) (hc2 : isLast i) (y : S1x1.Idx) :
    ∃ pc ∈ (runLast c i arg2 harg2 arg3 harg3 arg4 harg4 arg5 harg5 arg6 harg6 hc1 hc2 x0 x1 x2 xs).2.1, y ∈ pc.1.set :=
  View.cover_of_tiledL (runLast c i arg2 harg2 arg3 harg3 arg4 harg4 arg5 harg5 arg6 harg6 hc1 hc2 x0 x1 x2 xs).2.1 S1x1.size (by sl_kernel_rfl) y

/-- At the first point the accumulator ends at zero plus the tile's sum. -/
theorem accFirst (hc1 : isFirst i) (hc2 : ¬isLast i) :
    V11.read (Elt F) (V11.writes (Elt F) V11.junk (runFirst c i arg2 harg2 arg3 harg3 arg4 harg4 arg5 harg5 arg6 harg6 hc1 hc2 x0 x1 x2).1) = k0_pay1 (k0_pay3 i x0 x1 x2) (k0_pay2 (F := F)) := by
  rw [View.read_writes_eq_canon _ _ _ (coverFirst c i arg2 harg2 arg3 harg3 arg4 harg4 arg5 harg5 arg6 harg6 x0 x1 x2 hc1 hc2)]
  unfold runFirst; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

/-- At a middle point the accumulator ends at what it held plus the tile's sum. -/
theorem accMiddle (hc1 : ¬isFirst i) (hc2 : ¬isLast i) :
    V11.read (Elt F) (V11.writes (Elt F) V11.junk (runMiddle c i arg2 harg2 arg3 harg3 arg4 harg4 arg5 harg5 arg6 harg6 hc1 hc2 x0 x1 x2 xs).1) = k0_pay1 (k0_pay3 i x0 x1 x2) xs := by
  rw [View.read_writes_eq_canon _ _ _ (coverMiddle c i arg2 harg2 arg3 harg3 arg4 harg4 arg5 harg5 arg6 harg6 x0 x1 x2 xs hc1 hc2)]
  unfold runMiddle; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

/-- At the last point likewise, -/
theorem accLast (hc1 : ¬isFirst i) (hc2 : isLast i) :
    V11.read (Elt F) (V11.writes (Elt F) V11.junk (runLast c i arg2 harg2 arg3 harg3 arg4 harg4 arg5 harg5 arg6 harg6 hc1 hc2 x0 x1 x2 xs).2.1) = k0_pay1 (k0_pay3 i x0 x1 x2) xs := by
  rw [View.read_writes_eq_canon _ _ _ (coverLastAcc c i arg2 harg2 arg3 harg3 arg4 harg4 arg5 harg5 arg6 harg6 x0 x1 x2 xs hc1 hc2)]
  unfold runLast; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

/-- and the result's buffer ends at the accumulator's new contents. -/
theorem outLast (hc1 : ¬isFirst i) (hc2 : isLast i) :
    V11.read (Elt F) (V11.writes (Elt F) V11.junk (runLast c i arg2 harg2 arg3 harg3 arg4 harg4 arg5 harg5 arg6 harg6 hc1 hc2 x0 x1 x2 xs).1) = k0_pay1 (k0_pay3 i x0 x1 x2) xs := by
  rw [View.read_writes_eq_canon _ _ _ (coverLastOut c i arg2 harg2 arg3 harg3 arg4 harg4 arg5 harg5 arg6 harg6 x0 x1 x2 xs hc1 hc2)]
  unfold runLast; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

end

end Cert.KernelIdeal.Hand

end
-- ==== Proof.Obligation.lean ====
/-
  The pipeline's proof data and the body's obligation at every grid point.

  Between points the kernel keeps one thing: the 1×1 accumulator, which after n points holds the sum of the first n
  tiles' sums (zero before the first). The three input windows are only read, so each staging buffer holds its
  window's block at every point; windows 0 and 1 read the SAME array, the embedding table, so each holds half of
  it. The result's window is stored into at the last point only, where it receives the accumulator.
-/
import proofs.«181517_j23407571763518_1_alg».proof.Proof.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The accumulator after the first n grid points, over the windows' blocks: zero, then point by point the tile's
    sum added. -/
def accN (c : Dev nD) : ℕ → FVec F S1x1 .f32
  | 0 => k0_pay2
  | n + 1 => if h : n < cfg0.N then
      k0_pay1 (k0_pay3 (grid0.coords ⟨n, h⟩) (iblk m c 0 ⟨n, h⟩) (iblk m c 1 ⟨n, h⟩) (iblk m c 2 ⟨n, h⟩)) (accN c n)
    else accN c n

theorem accN_succ (c : Dev nD) (t : Fin cfg0.N) :
    accN m c (t.val + 1) = k0_pay1 (k0_pay3 (grid0.coords t) (iblk m c 0 t) (iblk m c 1 t) (iblk m c 2 t)) (accN m c t.val) := by
  obtain ⟨n, hn⟩ := t
  exact (dif_pos hn)

/-- The invariant before point n: at first the kernel's scratch at anything; afterwards the accumulator at the sum
    so far. -/
def PhiS (c : Dev nD) : ℕ → sProp 𝕄
  | 0 => Pipeline.scopedRest (Ix := Unit) (Name := ℕ) (U := UR sig nD τ) (Lvl := ℕ) (Val := Elt F) spec0 c
  | n + 1 => owns (c : Thread nD τ) accM fullShare (accN m c (n + 1))

theorem PhiS_pos (c : Dev nD) (n : ℕ) (hz : n ≠ 0) :
    PhiS m c n = owns (c : Thread nD τ) accM fullShare (accN m c n) := by
  cases n with
  | zero => exact absurd rfl hz
  | succ n => rfl

/-- The kernel's scratch at anything is the accumulator, as a memref, owned at some contents. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- The proof data: the arrays as the region finds them; after the body each input's buffer at its block and the
    result's at the accumulator's new contents; the invariant above; the two readers of the embedding table at half
    of it each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accN m c (t.val + 1)
  Φ t := PhiS m c t.val
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accN m c (t.val + 1) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## Where the result's window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last point the body stores nothing into the result's buffer and the pipeline does not write it back; -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
/-- at the last point it does. -/
theorem live3 : ∀ t : Fin cfg0.N, isLast (grid0.coords t) → cfg0.idle 3 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

set_option maxHeartbeats 4000000 in
/-- The body at any point: by cases on whether the point is the first, the last, or neither. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    Phi_succ, Phi_castSucc, leaves0, leaves1, leaves2]
  have hN : t.val < 64 := lt_of_lt_of_eq t.isLt (show cfg0.N = 64 from N_0)
  by_cases h0 : t.val = 0
  · have hc1 : isFirst (grid0.coords t) := (isFirst_iff t).mpr h0
    have hc2 : ¬isLast (grid0.coords t) := fun h => by have := (isLast_iff t).mp h; omega
    rw [Dat.leavesExact_idle (dats m 0 c) 3 t (idle3 t hc2) (noFlush3 t hc2)]
    rw [h0, show PhiS m c 0 = Pipeline.scopedRest (Ix := Unit) (Name := ℕ) (U := UR sig nD τ) (Lvl := ℕ) (Val := Elt F) spec0 c from rfl, scratch_eq, PhiS_pos m c (0 + 1) (by omega)]
    rw [show accN m c (0 + 1) = accN m c (t.val + 1) from by rw [h0], accN_succ m c t, h0, show accN m c 0 = k0_pay2 from rfl]
    iintro ⟨HS, Ho, ⟨%d0, H0⟩, ⟨%d1, H1⟩, ⟨%d2, H2⟩, ⟨%d3, H3⟩⟩
    iapply ((runFirst c (grid0.coords t) (ms0 t) (hs0 t) (ms1 t) (hs1 t) (ms2 t) (hs2 t) (ms3 t) (hs3 t) accM (Memref.isWhole_whole _) hc1 hc2 (iblk m c 0 t) (iblk m c 1 t) (iblk m c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS]
    · unfold owns; iexists _; isplitr
      swap; · iexact HS
      ipureintro
      exact (View.read_writes_of_cover _ _ _ _ _ (coverFirst c (grid0.coords t) (ms0 t) (hs0 t) (ms1 t) (hs1 t) (ms2 t) (hs2 t) (ms3 t) (hs3 t) accM (Memref.isWhole_whole _) _ _ _ hc1 hc2)).trans (accFirst c (grid0.coords t) (ms0 t) (hs0 t) (ms1 t) (hs1 t) (ms2 t) (hs2 t) (ms3 t) (hs3 t) accM (Memref.isWhole_whole _) _ _ _ hc1 hc2)
    isplitl [Ho]; · iexact Ho
    isplitl [H0]; · iexact H0
    isplitl [H1]; · iexact H1
    isplitl [H2]; · iexact H2
    iexists _; iexact H3
  · have hc1 : ¬isFirst (grid0.coords t) := fun h => h0 ((isFirst_iff t).mp h)
    rw [PhiS_pos m c t.val h0, PhiS_pos m c (t.val + 1) (by omega), accN_succ m c t]
    by_cases h1 : t.val = 63
    · have hc2 : isLast (grid0.coords t) := (isLast_iff t).mpr h1
      rw [show (dats m 0 c).leavesExact 3 t = owns (c : Thread nD τ) (ms3 t) fullShare ((dats m 0 c).after 3 t) from by
        unfold Dat.leavesExact; rw [live3 t hc2], after3, accN_succ m c t]
      iintro ⟨HS, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) hc1 hc2 (iblk m c 0 t) (iblk m c 1 t) (iblk m c 2 t) (accN m c t.val)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro
        exact (View.read_writes_of_cover _ _ _ _ _ (coverLastAcc c (grid0.coords t) (ms0 t) (hs0 t) (ms1 t) (hs1 t) (ms2 t) (hs2 t) (ms3 t) (hs3 t) accM (Memref.isWhole_whole _) _ _ _ _ hc1 hc2)).trans (accLast c (grid0.coords t) (ms0 t) (hs0 t) (ms1 t) (hs1 t) (ms2 t) (hs2 t) (ms3 t) (hs3 t) accM (Memref.isWhole_whole _) _ _ _ _ hc1 hc2)
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ _ _ _ (coverLastOut c (grid0.coords t) (ms0 t) (hs0 t) (ms1 t) (hs1 t) (ms2 t) (hs2 t) (ms3 t) (hs3 t) accM (Memref.isWhole_whole _) _ _ _ _ hc1 hc2)).trans (outLast c (grid0.coords t) (ms0 t) (hs0 t) (ms1 t) (hs1 t) (ms2 t) (hs2 t) (ms3 t) (hs3 t) accM (Memref.isWhole_whole _) _ _ _ _ hc1 hc2)
    · have hc2 : ¬isLast (grid0.coords t) := fun h => h1 ((isLast_iff t).mp h)
      rw [Dat.leavesExact_idle (dats m 0 c) 3 t (idle3 t hc2) (noFlush3 t hc2)]
      iintro ⟨HS, Ho, ⟨%d0, H0⟩, ⟨%d1, H1⟩, ⟨%d2, H2⟩, ⟨%d3, H3⟩⟩
      iapply ((runMiddle c (grid0.coords t) (ms0 t) (hs0 t) (ms1 t) (hs1 t) (ms2 t) (hs2 t) (ms3 t) (hs3 t) accM (Memref.isWhole_whole _) hc1 hc2 (iblk m c 0 t) (iblk m c 1 t) (iblk m c 2 t) (accN m c t.val)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro
        exact (View.read_writes_of_cover _ _ _ _ _ (coverMiddle c (grid0.coords t) (ms0 t) (hs0 t) (ms1 t) (hs1 t) (ms2 t) (hs2 t) (ms3 t) (hs3 t) accM (Memref.isWhole_whole _) _ _ _ _ hc1 hc2)).trans (accMiddle c (grid0.coords t) (ms0 t) (hs0 t) (ms1 t) (hs1 t) (ms2 t) (hs2 t) (ms3 t) (hs3 t) accM (Memref.isWhole_whole _) _ _ _ _ hc1 hc2)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunMain.lean ====
/-
  The run of @main: the region, then the three host operations that take the 1×1 result to the scalar mean.
-/
import proofs.«181517_j23407571763518_1_alg».proof.Proof.Obligation
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_fresh : (hostOps1 : List (HloOp τ sig (Elt F))).Forall fun op => op.fresh = ∅ := by
  simp only [List.Forall]; repeat' constructor

/-- @main is the region continued by its three host operations. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] (by simp only [List.Forall]) (by simp only [List.Forall]) main_chain

/-- The two windows on the embedding table hold its two halves; the others their arrays outright. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The input arrays are never written. -/
theorem arrAt0 (c : Dev nD) (n : ℕ) : (dats m 0 c).arrAt 0 n = V m c main_arg0 := ((dats m 0 c).arrAt_in 0 rfl n).trans (A_eq m c 0)
theorem arrAt1 (c : Dev nD) (n : ℕ) : (dats m 0 c).arrAt 1 n = V m c main_arg0 := ((dats m 0 c).arrAt_in 1 rfl n).trans (A_eq m c 1)
theorem arrAt2 (c : Dev nD) (n : ℕ) : (dats m 0 c).arrAt 2 n = V m c main_arg1 := ((dats m 0 c).arrAt_in 2 rfl n).trans (A_eq m c 2)

/-- The pipeline's arrays at contents F, one window at a time, as whole buffers. -/
theorem arrays_four (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)) := by
  unfold Dat.arrays
  rw [bigSep_W0]
  rw [(arr_whole0 0).set_eq_univ, (arr_whole0 2).set_eq_univ, (arr_whole0 3).set_eq_univ]
  rfl

/-- The three distinct buffers behind the four windows, one by one. -/
theorem arrBufs_three (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [show Finset.univ.image (Pipeline.arrRef spec0) = {main_arg0, main_arg1, main_v0} from by decide,
    bigSep_insert (by decide), bigSep_insert (by decide), bigSep_singleton]
  rfl

/-- At entry: the embedding table, held whole, is split between its two readers. -/
theorem hsplit (c : Dev nD) : (Pipeline.arrBufs spec0 c (V m c) : sProp 𝕄) ⊢ (dats m 0 c).arrays ((dats m 0 c).arrAt · 0) := by
  rw [arrays_four, arrBufs_three]
  iintro ⟨H0, H1, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  iexact H3

/-! ## The three host operations after the region -/

/-- The result array as the region leaves it. -/
abbrev outArr (c : Dev nD) : Buf (Elt F) ((c : Thread nD τ).loc main_v0) := (dats m 0 c).arrAt 3 cfg0.N

/-- The core's buffers at the region's exit, as far as the later lines read them: the launch contents, with the
    result array at what the region wrote. -/
def Wexit (c : Dev nD) : Valuation τ sig (Elt F) :=
  Function.update (fun b => m (c, b)) (Proc.devRef .tc main_v0) (outArr m c)

theorem Wexit_v0 (c : Dev nD) : Wexit m c (Proc.devRef .tc main_v0) = outArr m c := Function.update_self ..

/-- The four buffers the later lines touch: the result array and the three scalars they compute. -/
abbrev tailS : Finset (DevRef τ sig) :=
  {Proc.devRef .tc main_v0, Proc.devRef .tc main_v1, Proc.devRef .tc main_cst, Proc.devRef .tc main_v2}

theorem hostOps1_tailS : ∀ op ∈ (hostOps1 : List (HloOp τ sig (Elt F))), op.bufs ⊆ tailS := by
  intro op hop
  simp only [hostOps1, List.mem_cons, List.mem_nil_iff, or_false] at hop
  rcases hop with rfl | rfl | rfl
  · rw [StableHlo.reshape_bufs]; intro b hb; simp only [tailS, Finset.mem_insert, Finset.mem_singleton] at hb ⊢; tauto
  · rw [StableHlo.nullary_bufs]; intro b hb; simp only [tailS, Finset.mem_insert, Finset.mem_singleton] at hb ⊢; tauto
  · rw [StableHlo.binary_bufs]; intro b hb; simp only [tailS, Finset.mem_insert, Finset.mem_singleton] at hb ⊢; tauto

theorem held_tailS (c : Dev nD) (W : Valuation τ sig (Elt F)) :
    (StableHlo.held (Ix := Unit) (Name := ℕ) (U := UR sig nD τ) (Lvl := ℕ) (c : Thread nD τ) tailS W : sProp 𝕄)
      = iprop((((c : Thread nD τ).loc main_v0) ↦{fullShare} W (Proc.devRef .tc main_v0))
          ∗ (((c : Thread nD τ).loc main_v1) ↦{fullShare} W (Proc.devRef .tc main_v1))
          ∗ (((c : Thread nD τ).loc main_cst) ↦{fullShare} W (Proc.devRef .tc main_cst))
          ∗ (((c : Thread nD τ).loc main_v2) ↦{fullShare} W (Proc.devRef .tc main_v2))) := by
  unfold StableHlo.held
  rw [bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

/-- What the three scalars hold after the lines. -/
abbrev tailAt (c : Dev nD) (b : Ref sig .tc) : Buf (Elt F) ((c : Thread nD τ).loc b) :=
  StableHlo.after hostOps1 (Wexit m c) (Proc.devRef .tc b)

/-- The bypassing buffers after the lines. -/
def Zout (c : Dev nD) : sProp 𝕄 :=
  iprop((((c : Thread nD τ).loc main_v1) ↦{fullShare} tailAt m c main_v1)
      ∗ (((c : Thread nD τ).loc main_cst) ↦{fullShare} tailAt m c main_cst)
      ∗ (((c : Thread nD τ).loc main_v2) ↦{fullShare} tailAt m c main_v2))

/-- The lines do not write the result array. -/
theorem tail_keeps_v0 (c : Dev nD) : tailAt m c main_v0 = outArr m c := by
  unfold tailAt
  rw [StableHlo.after_of_forall_not_mem _ _ (fun op hop => by
    simp only [hostOps1, List.mem_cons, List.mem_nil_iff, or_false] at hop
    rcases hop with rfl | rfl | rfl <;>
      simp only [StableHlo.reshape_writes, StableHlo.nullary_writes, StableHlo.binary_writes, Finset.mem_singleton] <;>
      exact StableHlo.devRef_ne_of_ne (by decide)), Wexit_v0]

set_option maxHeartbeats 2000000 in
set_option backward.isDefEq.respectTransparency.types false in
/-- From the region's exit the three lines run, within the result array and the three scalars. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  have hp : (pure PUnit.unit : Prog (TpuEff nD τ sig (Elt F) (Pipeline.Sig Λ₀ (Fin 1) fun p => (pcfgs (F := F) p).Adm) .tc) PUnit) = .ret PUnit.unit := rfl
  rw [arrays_four, unscopedRest0_eq, Pipeline.chain_cons, Pipeline.chain_nil, hp]
  have hseq := StableHlo.wp_seq (Ix := Unit) (Name := ℕ) (U := UR sig nD τ) (Lvl := ℕ) (defs := defs (F := F)) (Variants.lift Variants.none) none Set.univ c tailS
    (fun _ => (.ret ⟨⟩ : Prog (TpuEff nD τ sig (Elt F) (Pipeline.Sig Λ₀ (Fin 1) fun p => (pcfgs (F := F) p).Adm) .tc) PUnit)) (K := Q')
    hostOps1 (hostOps1_tailS) (fun op hop => (List.forall_iff_forall_mem.mp hostOps1_fresh) op hop) (Wexit m c)
  rw [held_tailS, held_tailS, Wexit_v0, show StableHlo.after hostOps1 (Wexit m c) (Proc.devRef .tc main_v0) = outArr m c from tail_keeps_v0 m c, wp_ret] at hseq
  iintro ⟨Hk, Hbd, ⟨A0, A1, A2, A3⟩, ⟨R1, Rc, R2⟩⟩
  iapply hseq $$ [Hbd A3 R1 Rc R2]
  · isplitl [Hbd]; · iexact Hbd
    isplitl [A3]; · iexact A3
    isplitl [R1]; · iexact R1
    isplitl [Rc]; · iexact Rc
    iexact R2
  iintro ⟨Hbd, B0, B1, Bc, B2⟩
  imodintro
  iapply Hk
  isplitl [A0 A1 A2 B0]
  · isplitl [A0]; · iexact A0
    isplitl [A1]; · iexact A1
    isplitl [A2]; · iexact A2
    iexact B0
  unfold Zout
  isplitl [B1]; · iexact B1
  isplitl [Bc]; · iexact Bc
  iexact B2

/-! ## The run -/

/-- Before the first point the invariant is the kernel's scratch at anything. -/
theorem hin0 (c : Dev nD) :
    (Pipeline.scopedRest (Ix := Unit) (Name := ℕ) (U := UR sig nD τ) (Lvl := ℕ) (Val := Elt F) spec0 c : sProp 𝕄) ⊢ (dats m 0 c).Φ 0 :=
  BI.Entails.refl _

/-- At the last point the invariant gives the scratch back. -/
theorem hout (c : Dev nD) :
    (dats m 0 c).Φ (Fin.last cfg0.N)
      ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 64 := N_0; omega), scratch_eq]
  iintro H
  isplitr; · iempintro
  iexists _; iexact H

/-- What a final memory is known to hold: the scalar result at what the lines compute from the region's result, and the
    two argument arrays as launched. -/
def Post : PUnit × MemSt nD τ sig (Elt F) → Prop := fun r => ∀ c : Dev nD,
  r.2.mem ((c : Thread nD τ).loc main_v2) = tailAt m c main_v2
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- From any memory with every semaphore at zero, every weakly fair execution of @main terminates, faulting nowhere,
    in a state of that kind. -/
theorem run_main : θ_run defs (onTc (τ := τ) (main (F := F))) ⟨m, fun _ => 0, ρ⟩ (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Zout m)
    (hX := fun c => by
      rw [Pipeline.unscopedRestP_none]
      iintro H; isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, HR⟩; iexact HR).trans (hin0 m c))
    (hout := hout m)
    (htail := htail m)
    (QY := fun c s => s.mem ((c : Thread nD τ).loc main_v2) = tailAt m c main_v2)
    (hY := fun c s' => by
      unfold Zout
      iintro ⟨-, ⟨H1, Hc, H2⟩, HSI⟩
      imodintro
      ihave Hr := (pointsTo_read_all ({main_v2} : Finset (Ref sig .tc)) (fun b => (c : Thread nD τ).loc b) (fun b => tailAt m c b) s') $$ [H2 HSI]
      · rw [bigSep_singleton]; isplitl [H2] <;> iassumption
      icases Hr with ⟨%hr, HSI⟩
      isplitr; · ipureintro; exact hr main_v2 (Finset.mem_singleton_self _)
      iexact HSI)
    (hQ := fun s h c => ⟨(h c).2.2, ((h c).1 0).trans (arrAt0 m c _), ((h c).1 2).trans (arrAt2 m c _)⟩)

end Cert.KernelIdeal.Hand

end
-- ==== Proof.Blocks.lean ====
/-
  Each input window's block at a grid point, read off its argument array: at point (I, J) of the 8 × 8 grid the
  first window holds rows 512·I … of the embedding table, the second rows 512·J …, and the third the tile (I, J)
  of the target distances. A block's coordinate on an axis is the window's block index there times the block's
  extent plus the coordinate inside the block; the block indices are read off the grid coordinates once, over
  the 64 points.
-/
import proofs.«181517_j23407571763518_1_alg».proof.Proof.FrameDefs

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)

variable {F : FTy → Type} [FloatOps F]

variable (m : (ℓ : Loc nD τ sig) → Buf (Elt F) ℓ)

/-- The first window's block index: the first grid coordinate on the rows, zero on the columns. -/
theorem index0_facts : ∀ t : Fin cfg0.N,
    win0_0.index t (0 : Fin 2) = (grid0.coords t 0).val ∧ win0_0.index t (1 : Fin 2) = 0 :=
  (by decide +kernel : ∀ t : Fin grid0.N,
    win0_0.index t (0 : Fin 2) = (grid0.coords t 0).val ∧ win0_0.index t (1 : Fin 2) = 0)

/-- The second window's block index: the second grid coordinate on the rows, zero on the columns. -/
theorem index1_facts : ∀ t : Fin cfg0.N,
    win0_1.index t (0 : Fin 2) = (grid0.coords t 1).val ∧ win0_1.index t (1 : Fin 2) = 0 :=
  (by decide +kernel : ∀ t : Fin grid0.N,
    win0_1.index t (0 : Fin 2) = (grid0.coords t 1).val ∧ win0_1.index t (1 : Fin 2) = 0)

/-- The third window's block index: the two grid coordinates. -/
theorem index2_facts : ∀ t : Fin cfg0.N,
    win0_2.index t (0 : Fin 2) = (grid0.coords t 0).val ∧ win0_2.index t (1 : Fin 2) = (grid0.coords t 1).val :=
  (by decide +kernel : ∀ t : Fin grid0.N,
    win0_2.index t (0 : Fin 2) = (grid0.coords t 0).val ∧ win0_2.index t (1 : Fin 2) = (grid0.coords t 1).val)

/-- The first window's block at a point is the row block of the embedding table at the first grid coordinate. -/
theorem iblk0_eq (c : Dev nD) (t : Fin cfg0.N) :
    (iblk m c 0 t : Vec F S512x768 .f32) = rowBlock (V m c main_arg0) (grid0.coords t 0) := by
  obtain ⟨e0, e1⟩ := index0_facts t
  funext y
  show V m c main_arg0 (((cfg0.win 0).blk t).view.emb y) = V m c main_arg0 _
  congr 1
  funext a; apply Fin.ext
  match a with
  | ⟨0, _⟩ =>
    show win0_0.index t (0 : Fin 2) * 512 + 1 * (y 0).val = (grid0.coords t 0).val * 512 + (y 0).val
    omega
  | ⟨1, _⟩ =>
    show win0_0.index t (1 : Fin 2) * 768 + 1 * (y 1).val = (y 1).val
    omega

/-- The second window's block at a point is the row block of the embedding table at the second grid coordinate. -/
theorem iblk1_eq (c : Dev nD) (t : Fin cfg0.N) :
    (iblk m c 1 t : Vec F S512x768 .f32) = rowBlock (V m c main_arg0) (grid0.coords t 1) := by
  obtain ⟨e0, e1⟩ := index1_facts t
  funext y
  show V m c main_arg0 (((cfg0.win 1).blk t).view.emb y) = V m c main_arg0 _
  congr 1
  funext a; apply Fin.ext
  match a with
  | ⟨0, _⟩ =>
    show win0_1.index t (0 : Fin 2) * 512 + 1 * (y 0).val = (grid0.coords t 1).val * 512 + (y 0).val
    omega
  | ⟨1, _⟩ =>
    show win0_1.index t (1 : Fin 2) * 768 + 1 * (y 1).val = (y 1).val
    omega

/-- The third window's block at a point is the tile of the target distances at the two grid coordinates. -/
theorem iblk2_eq (c : Dev nD) (t : Fin cfg0.N) :
    (iblk m c 2 t : Vec F S512x512 .f32) = distTile (V m c main_arg1) (grid0.coords t 0) (grid0.coords t 1) := by
  obtain ⟨e0, e1⟩ := index2_facts t
  funext y
  show V m c main_arg1 (((cfg0.win 2).blk t).view.emb y) = V m c main_arg1 _
  congr 1
  funext a; apply Fin.ext
  match a with
  | ⟨0, _⟩ =>
    show win0_2.index t (0 : Fin 2) * 512 + 1 * (y 0).val = (grid0.coords t 0).val * 512 + (y 0).val
    omega
  | ⟨1, _⟩ =>
    show win0_2.index t (1 : Fin 2) * 512 + 1 * (y 1).val = (grid0.coords t 1).val * 512 + (y 1).val
    omega

end Cert.KernelIdeal.Hand

end
-- ==== Proof.TileSpec.lean ====
/-
  The tile (I, J) of the pair matrix, in the specification's terms: its rows are rows 512·I … 512·I + 511 of the
  embedding table, its columns rows 512·J … 512·J + 511, and its contribution to the total is the sum of the
  off-diagonal pair losses over its 512 × 512 entries.
-/
import proofs.«181517_j23407571763518_1_alg».proof.Proof.Spec
import proofs.«181517_j23407571763518_1_alg».proof.Proof.KDefs

noncomputable section

open scoped BigOperators

namespace Cert.KernelIdeal.Hand

open Cert.KernelIdeal Cert.KernelIdeal.Gen Idealize.ShloMosaic Idealize.ShloMosaic.ValueIdx

/-- Row r of block I of the embedding table, as a row of the whole table. -/
def tileRow (I : Fin 8) (r : Fin 512) : Fin 4096 := ⟨I.val * 512 + r.val, by omega⟩

/-- The sum of the off-diagonal pair losses over the tile at grid coordinates i. -/
def tileTotal (e : Vec Ideal S4096x768 .f32) (a : Vec Ideal S4096x4096 .f32) (i : grid0.Coords) : EReal :=
  ∑ r : Fin 512, ∑ c : Fin 512, Cert.Spec.offDiag e a (tileRow (i 0) r) (tileRow (i 1) c)

end Cert.KernelIdeal.Hand

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.TileSum.lean ====
/-
  One grid point of the kernel, in the specification's terms.

  At the tile (I, J) the body forms, for every pair (r, c) of the tile, the squared norms of row r of block I and of
  row c of block J (lane sums of squares, the second turned into a row), the Gram entry (the product of block I with
  the transpose of block J, into zero), the residual ‖·‖² + ‖·‖² − 2·⟨·,·⟩ − a and its square; a word comparison of the
  two global row numbers 512·I + r and 512·J + c puts zero on the diagonal; the lane sums over c give a column of row
  sums, whose sum over r is added to the running 1 × 1 value. Read index by index at the extended reals this is the
  accumulator plus the tile's sum of off-diagonal pair losses: the sums are the specification's own sums, term by
  term, and no regrouping is needed.
-/
import proofs.«181517_j23407571763518_1_alg».proof.Proof.TileSpec
import proofs.«181517_j23407571763518_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

namespace TileSum

/-! ## Layout: the keep-dimension column forms -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The diagonal mask -/

/-- The mask bit at `(r, c)` of tile `(I, J)`: the two global row numbers, each a block offset plus a coordinate below 512,
    never wrap in 32 bits, so the words are equal exactly when the numbers are. -/
theorem mask_bit (I J : Fin 8) (r c : Fin 512) :
    IntOp.cmpi .eq (IntOp.addi (Scalar.muli (BitVec.ofNat 32 I.val) 512#32) (BitVec.ofNat 32 r.val))
        (IntOp.addi (Scalar.muli (BitVec.ofNat 32 J.val) 512#32) (BitVec.ofNat 32 c.val))
      = if tileRow I r = tileRow J c then 1#1 else 0#1 := by
  have hI : IntOp.addi (Scalar.muli (BitVec.ofNat 32 I.val) 512#32) (BitVec.ofNat 32 r.val) = BitVec.ofNat 32 (I.val * 512 + r.val) := by
    show BitVec.ofNat 32 I.val * BitVec.ofNat 32 512 + BitVec.ofNat 32 r.val = _
    rw [← BitVec.ofNat_mul, ← BitVec.ofNat_add]
  have hJ : IntOp.addi (Scalar.muli (BitVec.ofNat 32 J.val) 512#32) (BitVec.ofNat 32 c.val) = BitVec.ofNat 32 (J.val * 512 + c.val) := by
    show BitVec.ofNat 32 J.val * BitVec.ofNat 32 512 + BitVec.ofNat 32 c.val = _
    rw [← BitVec.ofNat_mul, ← BitVec.ofNat_add]
  rw [hI, hJ]
  have hx : I.val * 512 + r.val < 2 ^ 32 := by omega
  have hy : J.val * 512 + c.val < 2 ^ 32 := by omega
  have hiff : (BitVec.ofNat 32 (I.val * 512 + r.val) = BitVec.ofNat 32 (J.val * 512 + c.val)) ↔ tileRow I r = tileRow J c := by
    constructor
    · intro h
      have := congrArg BitVec.toNat h
      rw [BitVec.toNat_ofNat, BitVec.toNat_ofNat, Nat.mod_eq_of_lt hx, Nat.mod_eq_of_lt hy] at this
      exact Fin.ext this
    · intro h
      have := congrArg Fin.val h
      exact congrArg (BitVec.ofNat 32) this
  show BitVec.ofBool (BitVec.ofNat 32 (I.val * 512 + r.val) == BitVec.ofNat 32 (J.val * 512 + c.val)) = _
  by_cases h : tileRow I r = tileRow J c
  · rw [if_pos h, beq_iff_eq.mpr (hiff.mpr h)]; rfl
  · rw [if_neg h, beq_eq_false_iff_ne.mpr (fun h' => h (hiff.mp h'))]; rfl

/-! ## The three sums of a tile, each read at its coordinates -/

/-- The squared norms of a block's rows, kept as a column: at `(r, ·)` the sum over `k` of the squares of row `r`. -/
theorem rowSq_apply (v : FVec Ideal S512x768 .f32) (hφ : FTy.f32 = FTy.f32 ∨ FTy.f32 = FTy.bf16)
    (hacc : (0x00000000#32 : BitVec 32) = 0x00000000#32) (r : Fin 512) (u : Fin 1) :
    shapeCast S512x1 (multiReduction (F := Ideal) .add [1] S512 (mulf v v) 0x00000000#32 reduces_S512x768_S512 hφ hacc)
        shapeCasts_S512_S512x1 (ix2 r u)
      = ∑ k : Fin 768, v (ix2 r k) * v (ix2 r k) := by
  refine (shapeCast_a_a1_apply _ shapeCasts_S512_S512x1 r u).trans ?_
  refine (Ideal.multiReduction_add_single _ _ reduces_S512x768_S512 hφ hacc (ix1 r)).trans ?_
  refine Finset.sum_congr rfl fun k _ => ?_
  have hk : reduces_S512x768_S512.lift (ix1 r) k = ix2 r k :=
    funext fun a => Fin.ext (by match a with | ⟨0, _⟩ => rfl | ⟨1, _⟩ => rfl)
  rw [hk]
  rfl

/-- The kernel's dimension record is the plain rows-by-columns one (the same six lists; a record's proof field carries nothing). -/
theorem dot_eq_plain : dot_S512x768_S768x512_S512x512_1_0_0_1_n_n = DotDims.plain 512 768 512 := rfl

/-- The Gram block: the product of the row block with the transposed column block, into zero, at `(r, c)`. -/
theorem gram_apply (v5 v6 : FVec Ideal S512x768 .f32) (r c : Fin 512) :
    matmul dot_S512x768_S768x512_S512x512_1_0_0_1_n_n none (truncf .bf16 v5 bitsLt_bf16_f32)
        (transpose S768x512 [1, 0] (truncf .bf16 v6 bitsLt_bf16_f32) transposes_S512x768_p1_0_S768x512)
        (constant (F := Ideal) S512x512 .f32 0x00000000#32) (ix2 r c)
      = ∑ k : Fin 768, v5 (ix2 r k) * v6 (ix2 c k) := by
  rw [dot_eq_plain]
  refine (Cert.GNN.matmul_plain_zero_apply none _ _ r c).trans ?_
  refine Finset.sum_congr rfl fun k _ => ?_
  rw [transpose_ix2_apply]
  rfl

/-- The mask vector read at `(r, c)`: the word comparison of the two global row numbers. -/
theorem maskVec_apply (i : grid0.Coords) (r c : Fin 512) :
    cmpi .eq
        (addi (broadcast S512x512 (Scalar.muli (BitVec.ofNat 32 (i 0).val) 512#32)) (iota .tc S512x512 32 [0] iota_S512x512_d0_w32))
        (addi (broadcast S512x512 (Scalar.muli (BitVec.ofNat 32 (i 1).val) 512#32)) (iota .tc S512x512 32 [1] iota_S512x512_d1_w32))
        (ix2 r c)
      = if tileRow (i 0) r = tileRow (i 1) c then 1#1 else 0#1 := by
  show IntOp.cmpi .eq
      (IntOp.addi (Scalar.muli (BitVec.ofNat 32 (i 0).val) 512#32) (iota .tc S512x512 32 [0] iota_S512x512_d0_w32 (ix2 r c)))
      (IntOp.addi (Scalar.muli (BitVec.ofNat 32 (i 1).val) 512#32) (iota .tc S512x512 32 [1] iota_S512x512_d1_w32 (ix2 r c))) = _
  rw [iota_single_apply, iota_single_apply]
  exact mask_bit (i 0) (i 1) r c

/-- The loss of the pair `(r, c)` of a tile, off the diagonal, from the three blocks the body loaded. -/
def tileLoss (v5 v6 : Vec Ideal S512x768 .f32) (v24 : Vec Ideal S512x512 .f32) (r c : Fin 512) : EReal :=
  (((∑ k : Fin 768, v5 (ix2 r k) * v5 (ix2 r k)) + (∑ k : Fin 768, v6 (ix2 c k) * v6 (ix2 c k)))
      - Cert.Spec.two * (∑ k : Fin 768, v5 (ix2 r k) * v6 (ix2 c k)) - v24 (ix2 r c))
    * (((∑ k : Fin 768, v5 (ix2 r k) * v5 (ix2 r k)) + (∑ k : Fin 768, v6 (ix2 c k) * v6 (ix2 c k)))
      - Cert.Spec.two * (∑ k : Fin 768, v5 (ix2 r k) * v6 (ix2 c k)) - v24 (ix2 r c))

/-- The body's row sums: at `(r, ·)` the sum over the tile's columns of the masked pair losses. -/
theorem pay3_apply (i : grid0.Coords) (v5 v6 : Vec Ideal S512x768 .f32) (v24 : Vec Ideal S512x512 .f32) (r : Fin 512) (u : Fin 1) :
    k0_pay3 (F := Ideal) i v5 v6 v24 (ix2 r u)
      = ∑ c : Fin 512, if tileRow (i 0) r = tileRow (i 1) c then 0 else tileLoss v5 v6 v24 r c := by
  unfold k0_pay3
  refine (shapeCast_a_a1_apply _ shapeCasts_S512_S512x1 r u).trans ?_
  refine (Ideal.multiReduction_add_single _ _ reduces_S512x512_S512 _ _ (ix1 r)).trans ?_
  refine Finset.sum_congr rfl fun (c : Fin 512) _ => ?_
  have hc : reduces_S512x512_S512.lift (ix1 r) c = ix2 r c :=
    funext fun a => Fin.ext (by match a with | ⟨0, _⟩ => rfl | ⟨1, _⟩ => rfl)
  rw [hc]
  simp only [select_apply, mulf_apply, subf_apply, addf_apply, broadcast_apply]
  rw [maskVec_apply, broadcastTo_a1_ab_apply, broadcastTo_1b_ab_apply, transpose_ix2_apply, rowSq_apply, rowSq_apply, gram_apply]
  by_cases h : tileRow (i 0) r = tileRow (i 1) c
  · rw [if_pos h, if_pos h, select_one]
    exact Ideal.ofBits_zero_f32
  · rw [if_neg h, if_neg h, select_zero]
    rfl

/-- The accumulator's update: the column of row sums summed over its rows, added to the running `1 × 1` value. -/
theorem pay1_apply (v39 : FVec Ideal S512x1 .f32) (acc : FVec Ideal S1x1 .f32) (j : S1x1.Idx) :
    k0_pay1 (F := Ideal) v39 acc j = acc (ix2 0 0) + ∑ r : Fin 512, v39 (ix2 r (0 : Fin 1)) := by
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay1
  rw [shapeCast_self, addf_apply, shapeCast_a_1a_apply]
  refine congrArg (acc (ix2 0 0) + ·) ?_
  refine (Ideal.multiReduction_add_single _ _ reduces_S512x1_S1 _ _ (ix1 0)).trans ?_
  refine Finset.sum_congr rfl fun (r : Fin 512) _ => ?_
  exact congrArg v39 (funext fun a => Fin.ext (by match a with | ⟨0, _⟩ => rfl | ⟨1, _⟩ => rfl))

end TileSum

open TileSum

/-! ## One grid point -/

/-- One grid point adds its tile's sum of off-diagonal pair losses to the accumulator. -/
theorem tile_sum (e : Vec Ideal S4096x768 .f32) (a : Vec Ideal S4096x4096 .f32) (i : grid0.Coords) (acc : FVec Ideal S1x1 .f32) :
    k0_pay1 (F := Ideal) (tileRows e a i) acc = fun _ => acc (ix2 0 0) + tileTotal e a i := by
  funext j
  rw [pay1_apply]
  refine congrArg (acc (ix2 0 0) + ·) ?_
  unfold tileTotal
  refine Finset.sum_congr rfl fun r _ => ?_
  unfold tileRows
  rw [pay3_apply]
  refine Finset.sum_congr rfl fun c _ => ?_
  rfl

end Cert.KernelIdeal.Hand

end
-- ==== Proof.GridSum.lean ====
/-
  The accumulator after the whole grid is the specification's total.

  The grid is 8 × 8, run row-major: point t works on the tile (t / 8, t % 8). The accumulator starts at zero and each
  point adds its tile's total, so after n points it holds the sum of the first n tiles' totals (induction on n; only
  0 + x = x and the definition of a sum over an initial segment are used). After all 64 points this is the sum over all
  pairs (I, J) of block numbers of the tile totals. Every row R < 4096 is 512·I + r for exactly one block I < 8 and one
  offset r < 512, so a sum over all rows is a sum over blocks of sums over offsets, and the same for the columns;
  exchanging the two middle sums turns Σ_I Σ_r Σ_J Σ_c into Σ_I Σ_J Σ_r Σ_c. Everything is reindexing and regrouping
  of finite sums in a commutative additive monoid: no distributivity, no cancellation.
-/
import proofs.«181517_j23407571763518_1_alg».proof.Proof.TileSpec
import Idealize.ShloMosaic.PureOps.Ideal.Laws
import Mathlib.Logic.Equiv.Fin.Basic
import Mathlib.Algebra.BigOperators.Fin

noncomputable section

open scoped BigOperators

namespace Cert.KernelIdeal.Hand

open Cert.KernelIdeal Cert.KernelIdeal.Gen Idealize.ShloMosaic Idealize.ShloMosaic.ValueIdx

namespace GridSum

/-- A sum over k < m·n is a sum over i < m of sums over j < n, with k = j + n·i. -/
theorem sum_fin_mul {M : Type} [AddCommMonoid M] {m n : ℕ} (f : Fin (m * n) → M) :
    ∑ k, f k = ∑ i : Fin m, ∑ j : Fin n, f (finProdFinEquiv (i, j)) :=
  ((Equiv.sum_comp finProdFinEquiv f).symm).trans (Fintype.sum_prod_type fun p => f (finProdFinEquiv p))

/-- The grid has 64 points. -/
theorem grid0_N : grid0.N = 8 * 8 := by decide

/-- The value the first grid point resets the accumulator to is zero: the constant's word is the f32 zero. -/
theorem pay2_zero : k0_pay2 (F := Ideal) = fun _ => (0 : EReal) := by
  funext j
  show Ideal.ofBits .f32 0x00000000#32 = 0
  exact Ideal.ofBits_zero_f32

/-- The tile total as a function of the two block numbers. -/
def blockTotal (e : Vec Ideal S4096x768 .f32) (a : Vec Ideal S4096x4096 .f32) (I J : Fin 8) : EReal :=
  ∑ r : Fin 512, ∑ c : Fin 512, Cert.Spec.offDiag e a (tileRow I r) (tileRow J c)

/-- A tile's total depends on the grid coordinates only through the two block numbers. -/
theorem tileTotal_eq (e : Vec Ideal S4096x768 .f32) (a : Vec Ideal S4096x4096 .f32) (i : grid0.Coords) :
    tileTotal e a i = blockTotal e a (i 0) (i 1) := rfl

/-- Row-major order, first coordinate: the stride of axis 0 is 8 and t < 64, so the coordinate is t / 8. -/
theorem coords_zero (t : Fin grid0.N) : ((grid0.coords t 0 : Fin 8) : ℕ) = t.val / 8 := by
  have h : t.val < 8 * 8 := lt_of_lt_of_eq t.isLt grid0_N
  show t.val / grid0.stride 0 % 8 = t.val / 8
  have hs : grid0.stride 0 = 8 := by decide
  rw [hs]
  omega

/-- Row-major order, second coordinate: the stride of axis 1 is 1, so the coordinate is t % 8. -/
theorem coords_one (t : Fin grid0.N) : ((grid0.coords t 1 : Fin 8) : ℕ) = t.val % 8 := by
  show t.val / grid0.stride 1 % 8 = t.val % 8
  have hs : grid0.stride 1 = 1 := by decide
  rw [hs, Nat.div_one]

/-- The 64 grid points, run through in order, are the 8 × 8 pairs of block numbers. -/
theorem sum_grid {M : Type} [AddCommMonoid M] (T : Fin 8 → Fin 8 → M) :
    ∑ t : Fin grid0.N, T (grid0.coords t 0) (grid0.coords t 1) = ∑ I : Fin 8, ∑ J : Fin 8, T I J := by
  rw [← Fintype.sum_prod_type' T]
  refine Fintype.sum_equiv ((finCongr grid0_N).trans finProdFinEquiv.symm) _ _ (fun t => ?_)
  congr 1
  · apply Fin.ext
    rw [coords_zero]
    rfl
  · apply Fin.ext
    rw [coords_one]
    rfl

/-- Rows 512·I + r, over the 8 blocks and the 512 rows of a block, are all 4096 rows. -/
theorem sum_rows {M : Type} [AddCommMonoid M] (f : Fin 4096 → M) :
    ∑ R : Fin 4096, f R = ∑ I : Fin 8, ∑ r : Fin 512, f (tileRow I r) := by
  have h := sum_fin_mul (m := 8) (n := 512) f
  refine h.trans ?_
  refine Finset.sum_congr rfl (fun I _ => Finset.sum_congr rfl (fun r _ => ?_))
  congr 1
  apply Fin.ext
  show r.val + 512 * I.val = I.val * 512 + r.val
  omega

/-- A double sum over all rows and all columns, cut into the 8 × 8 tiles of 512 × 512 entries: both indices are
    split into block and offset, and the offset of the row is exchanged with the block of the column. -/
theorem sum_blocks {M : Type} [AddCommMonoid M] (f : Fin 4096 → Fin 4096 → M) :
    ∑ R : Fin 4096, ∑ C : Fin 4096, f R C
      = ∑ I : Fin 8, ∑ J : Fin 8, ∑ r : Fin 512, ∑ c : Fin 512, f (tileRow I r) (tileRow J c) := by
  rw [sum_rows (fun R => ∑ C : Fin 4096, f R C)]
  refine Finset.sum_congr rfl (fun I _ => ?_)
  calc ∑ r : Fin 512, ∑ C : Fin 4096, f (tileRow I r) C
      = ∑ r : Fin 512, ∑ J : Fin 8, ∑ c : Fin 512, f (tileRow I r) (tileRow J c) :=
        Finset.sum_congr rfl (fun r _ => sum_rows (fun C => f (tileRow I r) C))
    _ = ∑ J : Fin 8, ∑ r : Fin 512, ∑ c : Fin 512, f (tileRow I r) (tileRow J c) := Finset.sum_comm

/-- What grid point number t adds to the accumulator: its tile's total, and nothing past the grid's end. -/
def stepTotal (e : Vec Ideal S4096x768 .f32) (a : Vec Ideal S4096x4096 .f32) (t : ℕ) : EReal :=
  if h : t < grid0.N then tileTotal e a (grid0.coords ⟨t, h⟩) else 0

/-- After n grid points the accumulator holds the sum of what the first n points add: it starts at zero, a point
    inside the grid adds its tile's total to what was there, and past the grid's end nothing changes. -/
theorem accAt_eq_sum (e : Vec Ideal S4096x768 .f32) (a : Vec Ideal S4096x4096 .f32)
    (htile : ∀ (i : grid0.Coords) (acc : FVec Ideal S1x1 .f32),
      k0_pay1 (F := Ideal) (tileRows e a i) acc = fun _ => acc (ix2 0 0) + tileTotal e a i) (n : ℕ) :
    accAt (F := Ideal) e a n = fun _ => ∑ t ∈ Finset.range n, stepTotal e a t := by
  induction n with
  | zero =>
    simp only [Finset.range_zero, Finset.sum_empty]
    exact pay2_zero
  | succ n ih =>
    funext j
    rw [Finset.sum_range_succ]
    by_cases h : n < grid0.N
    · have hs : accAt (F := Ideal) e a (n + 1)
          = k0_pay1 (F := Ideal) (tileRows e a (grid0.coords ⟨n, h⟩)) (accAt e a n) := by
        simp only [accAt, dif_pos h]
      rw [hs, htile, ih]
      simp only [stepTotal, dif_pos h]
    · have hs : accAt (F := Ideal) e a (n + 1) = accAt e a n := by
        simp only [accAt, dif_neg h]
      rw [hs, ih]
      simp only [stepTotal, dif_neg h, add_zero]

end GridSum

open GridSum in
/-- After all 64 grid points the accumulator holds the specification's total: the sum over the points in order is the
    sum over the pairs of block numbers of the tile totals, which is the sum over all rows and columns. -/
theorem accAt_final (e : Vec Ideal S4096x768 .f32) (a : Vec Ideal S4096x4096 .f32)
    (htile : ∀ (i : grid0.Coords) (acc : FVec Ideal S1x1 .f32),
      k0_pay1 (F := Ideal) (tileRows e a i) acc = fun _ => acc (ix2 0 0) + tileTotal e a i) :
    accAt (F := Ideal) e a grid0.N = fun _ => Cert.Spec.total e a := by
  rw [accAt_eq_sum e a htile]
  funext _
  rw [Finset.sum_range]
  have hstep : ∀ t : Fin grid0.N,
      stepTotal e a t.val = blockTotal e a (grid0.coords t 0) (grid0.coords t 1) := fun t => by
    simp only [stepTotal, dif_pos t.isLt]
    rfl
  rw [Fintype.sum_congr _ _ hstep, sum_grid (blockTotal e a)]
  exact (sum_blocks (Cert.Spec.offDiag e a)).symm

end Cert.KernelIdeal.Hand
end
-- ==== Proof.Value.lean ====
/-
  What the kernel's run leaves in its result, as the specification's mean pair loss.

  The accumulator over the windows' blocks is the accumulator over the arrays' rows and tiles; the 1×1 result array,
  written back once, at the last point, holds the accumulator's last contents, the total; the host's reshape and
  division make the scalar mean of it.
-/
import proofs.«181517_j23407571763518_1_alg».proof.Proof.RunMain
import proofs.«181517_j23407571763518_1_alg».proof.Proof.Blocks
import proofs.«181517_j23407571763518_1_alg».proof.Proof.TileSum
import proofs.«181517_j23407571763518_1_alg».proof.Proof.GridSum
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The accumulator stated over the windows' blocks is the one stated over the arrays. -/
theorem accN_eq (c : Dev nD) : ∀ n : ℕ, accN m c n = accAt (V m c main_arg0) (V m c main_arg1) n
  | 0 => rfl
  | n + 1 => by
    rw [accN, accAt]
    by_cases h : n < cfg0.N
    · rw [dif_pos h, dif_pos (show n < grid0.N from h), accN_eq c n]
      unfold tileRows
      rw [iblk0_eq, iblk1_eq, iblk2_eq]
    · rw [dif_neg h, dif_neg (show ¬ n < grid0.N from h), accN_eq c n]

/-- The one write-back, at the last point, writes the accumulator's last contents over the whole 1×1 array. -/
theorem flushed3_eq (c : Dev nD) (t : Fin cfg0.N) (hf : (cfg0.win 3).flush t = true) :
    (dats m 0 c).flushed 3 t = ((cfg0.win 3).blk t).view.read (Elt F) (accN m c 64) := by
  have h63 : t.val = 63 := by
    have h1 := (flush0_3 t).mp hf
    have h2 : t.val < 64 := lt_of_lt_of_eq t.isLt (show cfg0.N = 64 from N_0)
    omega
  show (cfg0.win 3).cut (grid0.coords t) ((dats m 0 c).after 3 t) = _
  rw [after3, h63]
  funext j
  show accN m c (63 + 1) j = accN m c 64 (((cfg0.win 3).blk t).view.emb j)
  refine congrArg (accN m c 64) ?_
  funext a; apply Fin.ext
  match a with
  | ⟨0, _⟩ => show (j 0).val = win0_3.index t (0 : Fin 2) * 1 + 1 * (j 0).val; rw [show win0_3.index t (0 : Fin 2) = 0 from rfl]; omega
  | ⟨1, _⟩ => show (j 1).val = win0_3.index t (1 : Fin 2) * 1 + 1 * (j 1).val; rw [show win0_3.index t (1 : Fin 2) = 0 from rfl]; omega

/-- That block is the whole array. -/
theorem cover3 (c : Dev nD) (i : S1x1.Idx) : ∃ t : Fin cfg0.N, (cfg0.win 3).flush t = true ∧ i ∈ ((cfg0.win 3).blk t).view.set := by
  have h63 : 63 < cfg0.N := by rw [show cfg0.N = 64 from N_0]; decide
  refine ⟨⟨63, h63⟩, (flush0_3 _).mpr rfl, ?_⟩
  show i ∈ ((View.whole main_v0).slice (win0_3.rect ⟨63, h63⟩)).set
  rw [View.set_slice_whole, Rect.mem_set_unit]
  intro a
  have := (i a).isLt
  match a with
  | ⟨0, _⟩ => exact ⟨Nat.zero_le _, (i 0).isLt⟩
  | ⟨1, _⟩ => exact ⟨Nat.zero_le _, (i 1).isLt⟩

/-- So after the run the result array holds the accumulator's last contents. -/
theorem outArr_eq (c : Dev nD) : outArr m c = accN m c 64 :=
  (dats m 0 c).arrAt_eq_of_cover 3 (accN m c 64) (fun t hf => flushed3_eq m c t hf) (cover3 c)

/-- The scalar the host lines compute from it. -/
theorem tail_v2 (c : Dev nD) :
    tailAt m c main_v2 = Host.divf (fun i => shapeCast S_ (outArr m c) shapeCasts_S1x1_S_ i) (constant S_ .f32 0x4B7FF000#32) := by
  unfold tailAt
  dsimp only [hostOps1]
  after_results
  rw [Wexit_v0]
  rfl

/-- At the ideal values the scalar @main ends with is the mean pair loss of the two argument arrays. -/
theorem kernel_value (m : (ℓ : Loc nD τ sig) → Buf (Elt Ideal) ℓ) (c : Dev nD) :
    tailAt m c main_v2
      = fun _ => Cert.Spec.meanLoss (m ((c : Thread nD τ).loc main_arg0)) (m ((c : Thread nD τ).loc main_arg1)) := by
  rw [tail_v2, outArr_eq, accN_eq, show (64 : ℕ) = grid0.N from N_0.symm, accAt_final _ _ (tile_sum _ _)]
  rfl

end Cert.KernelIdeal.Hand

end
-- ==== Proof.Bits.KDefs.lean ====
/-
  What the kernel accumulates, as pure functions of the two argument arrays (for every float instance).

  Grid point t = 8·I + J works on the 512 × 512 tile (I, J) of the pair matrix: it reads rows 512·I … of the
  embedding table twice over (once as the tile's rows, once — rows 512·J … — as its columns) and the tile (I, J)
  of the target distances, and adds the tile's sum of off-diagonal pair losses to a running 1 × 1 accumulator,
  which the first point resets to zero and the last point copies to the result.
-/
import proofs.«181517_j23407571763518_1_alg».proof.Proof.Gen.Kernel.Skeleton
import Idealize.ShloMosaic.Lib.ValueIdx

noncomputable section

namespace Cert.Kernel.Hand

open Cert.Kernel Cert.Kernel.Gen Idealize.ShloMosaic Idealize.ShloMosaic.ValueIdx

variable {F : FTy → Type} [FloatOps F]

/-- Rows 512·I … 512·I + 511 of the embedding table. -/
def rowBlock (e : Vec F S4096x768 .f32) (I : Fin 8) : Vec F S512x768 .f32 :=
  fun j => e (ix2 (⟨I.val * 512 + (j 0).val, by have := idx2_lt0 j; omega⟩ : Fin 4096) (⟨(j 1).val, idx2_lt1 j⟩ : Fin 768))

/-- The tile (I, J) of the target distances. -/
def distTile (a : Vec F S4096x4096 .f32) (I J : Fin 8) : Vec F S512x512 .f32 :=
  fun j => a (ix2 (⟨I.val * 512 + (j 0).val, by have := idx2_lt0 j; omega⟩ : Fin 4096) (⟨J.val * 512 + (j 1).val, by have := idx2_lt1 j; omega⟩ : Fin 4096))

/-- The row sums of the masked pair losses of the tile at grid coordinates i, as the body computes them. -/
def tileRows (e : Vec F S4096x768 .f32) (a : Vec F S4096x4096 .f32) (i : grid0.Coords) : FVec F S512x1 .f32 :=
  k0_pay3 i (rowBlock e (i 0)) (rowBlock e (i 1)) (distTile a (i 0) (i 1))

/-- The accumulator after the first n grid points: zero, then each point's tile sum added in grid order. -/
def accAt (e : Vec F S4096x768 .f32) (a : Vec F S4096x4096 .f32) : Nat → FVec F S1x1 .f32
  | 0 => k0_pay2
  | n + 1 => if h : n < grid0.N then k0_pay1 (tileRows e a (grid0.coords ⟨n, h⟩)) (accAt e a n) else accAt e a n

end Cert.Kernel.Hand

end
-- ==== Proof.Bits.FrameDefs.lean ====
/-
  The pipeline of the kernel's one region, seen from a grid point: the arrays as the region finds them, each
  window's block at a point, the two conditions the body branches on (is this the first point? the last?) in
  closed form over the 64 points, and the staging memrefs the body is called with.
-/
import proofs.«181517_j23407571763518_1_alg».proof.Proof.Gen.Kernel.Launch
import proofs.«181517_j23407571763518_1_alg».proof.Proof.Gen.Kernel.Skeleton
import proofs.«181517_j23407571763518_1_alg».proof.Proof.Gen.Kernel.Points
import proofs.«181517_j23407571763518_1_alg».proof.Proof.Bits.KDefs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the region is @main's first line). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved since the last fetch, and the body leaves the buffer as it found it. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first grid point": both coordinates zero, as the body's scalar chain computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": both coordinates seven. -/
abbrev isLast (i : grid0.Coords) : Prop := k0_cond2 i = 1#1

/-- Over the grid, run row-major, the first condition holds at point 0 only and the second at point 63 only. -/
theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 63 :=
  (by decide +kernel : ∀ t : Fin grid0.N, isLast (grid0.coords t) ↔ t.val = 63)

/-! ## The memrefs the body is called with -/

abbrev ms0 (t : Fin cfg0.N) : Memref sig .tc .vmem S512x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The accumulator: the kernel's one scratch buffer, which no window stages. -/
abbrev accM : Memref sig .tc .vmem S1x1 .f32 := Memref.whole cc0_scratch0
/-- A view through which 1×1 contents are stated. -/
abbrev V11 : View sig .tc .vmem S1x1 .f32 := (Memref.whole cc0_scratch0 : Memref sig .tc .vmem S1x1 .f32).view

end Cert.Kernel.Hand

end
-- ==== Proof.Bits.Runs.lean ====
/-
  The kernel body run once, in each of the three situations a grid point can be in.

  At the FIRST point the body zeroes the accumulator, then adds the tile's sum to it; at a MIDDLE point it only adds;
  at the LAST point it adds and then copies the accumulator to the result's staging buffer. In each case the input
  blocks are only read, and what the accumulator (and, at the last point, the result's buffer) ends holding is
  recorded as the list of stores made into it, latest first.
-/
import proofs.«181517_j23407571763518_1_alg».proof.Proof.Bits.FrameDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the first point (the reset taken, the final copy not): the inputs' buffers are handed back as they
    were, the result's buffer untouched, the accumulator with its stores — the zero, then the sum — written. -/
noncomputable def runFirst (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole) (hc1 : isFirst i) (hc2 : ¬isLast i)
    (x0 : Vec F S512x768 .f32) (x1 : Vec F S512x768 .f32) (x2 : Vec F S512x512 .f32) :
    { L : List (View.Piece (Elt F) S1x1 .f32) //
      ∀ (y : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun y E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d6, %f6, -, H6⟩, Hk⟩
    obtain rfl := harg2.eq_unread hf0
    obtain rfl := harg3.eq_unread hf1
    obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    iexists _; iexact H6

/-- The body at a middle point (neither the reset nor the final copy taken): the accumulator, found at xs, gets
    the one store of xs plus the tile's sum. -/
noncomputable def runMiddle (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole) (hc1 : ¬isFirst i) (hc2 : ¬isLast i)
    (x0 : Vec F S512x768 .f32) (x1 : Vec F S512x768 .f32) (x2 : Vec F S512x512 .f32) (xs : Vec F S1x1 .f32) :
    { L : List (View.Piece (Elt F) S1x1 .f32) //
      ∀ (y : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare y
                ∗ (∃ f, arg6.view.loc (c : Thread nD τ) ↦[arg6.view.set]{fullShare} arg6.view.writes (Elt F) f L)) -∗ K ⟨⟩))
          ⊢ wp frame (wpE (defs₀ (F := F)) Variants.none c none) E (cc0__loss_kernel i arg2 harg2 arg3 harg3 arg4 harg4 arg5 harg5 arg6 harg6) K } := by
  refine ⟨?_, fun y E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f6, %hf6, H6⟩, Hk⟩
    obtain rfl := harg2.eq_unread hf0
    obtain rfl := harg3.eq_unread hf1
    obtain rfl := harg4.eq_unread hf2
    obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact hf3
      iexact H3
    iexists _; iexact H6

/-- The body at the last point (no reset; the final copy taken): the accumulator gets its one store, and the
    result's buffer, found at anything, the store of the accumulator's new contents. -/
noncomputable def runLast (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole) (hc1 : ¬isFirst i) (hc2 : isLast i)
    (x0 : Vec F S512x768 .f32) (x1 : Vec F S512x768 .f32) (x2 : Vec F S512x512 .f32) (xs : Vec F S1x1 .f32) :
    Σ' (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__loss_kernel i arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]; unfold k0_part1_skel
    unfold owns
    iintro ⟨⟨%f0, %hf0, H0⟩, ⟨%f1, %hf1, H1⟩, ⟨%f2, %hf2, H2⟩, ⟨%d5, %f5, -, H5⟩, ⟨%f6, %hf6, H6⟩, Hk⟩
    obtain rfl := harg2.eq_unread hf0
    obtain rfl := harg3.eq_unread hf1
    obtain rfl := harg4.eq_unread hf2
    obtain rfl := harg6.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact H6

end Cert.Kernel.Hand

end
-- ==== Proof.Bits.Pieces.lean ====
/-
  What the body's stores leave behind, read back as values.

  A 1×1 buffer is covered by any one whole store into it, so after a run its contents are those of the latest store:
  the accumulator ends at (what it held, or zero at the first point) plus the tile's sum, and at the last point the
  result's buffer ends at the accumulator's new contents.
-/
import proofs.«181517_j23407571763518_1_alg».proof.Proof.Bits.Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl

section
variable (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x512 .f32) (harg4 : arg4.IsWhole) (arg5 : Memref sig .tc .vmem S1x1 .f32) (harg5 : arg5.IsWhole) (arg6 : Memref sig .tc .vmem S1x1 .f32) (harg6 : arg6.IsWhole)
variable (x0 : Vec F S512x768 .f32) (x1 : Vec F S512x768 .f32) (x2 : Vec F S512x512 .f32) (xs : Vec F S1x1 .f32)

/-- The stores of each case cover the 1×1 buffer they go into. -/
theorem coverFirst (hc1 : isFirst i) (hc2 : ¬isLast i) (y : S1x1.Idx) :
    ∃ pc ∈ (runFirst c i arg2 harg2 arg3 harg3 arg4 harg4 arg5 harg5 arg6 harg6 hc1 hc2 x0 x1 x2).1, y ∈ pc.1.set :=
  View.cover_of_tiledL (runFirst c i arg2 harg2 arg3 harg3 arg4 harg4 arg5 harg5 arg6 harg6 hc1 hc2 x0 x1 x2).1 S1x1.size (by sl_kernel_rfl) y
theorem coverMiddle (hc1 : ¬isFirst i) (hc2 : ¬isLast i) (y : S1x1.Idx) :
    ∃ pc ∈ (runMiddle c i arg2 harg2 arg3 harg3 arg4 harg4 arg5 harg5 arg6 harg6 hc1 hc2 x0 x1 x2 xs).1, y ∈ pc.1.set :=
  View.cover_of_tiledL (runMiddle c i arg2 harg2 arg3 harg3 arg4 harg4 arg5 harg5 arg6 harg6 hc1 hc2 x0 x1 x2 xs).1 S1x1.size (by sl_kernel_rfl) y
theorem coverLastOut (hc1 : ¬isFirst i) (hc2 : isLast i) (y : S1x1.Idx) :
    ∃ pc ∈ (runLast c i arg2 harg2 arg3 harg3 arg4 harg4 arg5 harg5 arg6 harg6 hc1 hc2 x0 x1 x2 xs).1, y ∈ pc.1.set :=
  View.cover_of_tiledL (runLast c i arg2 harg2 arg3 harg3 arg4 harg4 arg5 harg5 arg6 harg6 hc1 hc2 x0 x1 x2 xs).1 S1x1.size (by sl_kernel_rfl) y
theorem coverLastAcc (hc1 : ¬isFirst i) (hc2 : isLast i) (y : S1x1.Idx) :
    ∃ pc ∈ (runLast c i arg2 harg2 arg3 harg3 arg4 harg4 arg5 harg5 arg6 harg6 hc1 hc2 x0 x1 x2 xs).2.1, y ∈ pc.1.set :=
  View.cover_of_tiledL (runLast c i arg2 harg2 arg3 harg3 arg4 harg4 arg5 harg5 arg6 harg6 hc1 hc2 x0 x1 x2 xs).2.1 S1x1.size (by sl_kernel_rfl) y

/-- At the first point the accumulator ends at zero plus the tile's sum. -/
theorem accFirst (hc1 : isFirst i) (hc2 : ¬isLast i) :
    V11.read (Elt F) (V11.writes (Elt F) V11.junk (runFirst c i arg2 harg2 arg3 harg3 arg4 harg4 arg5 harg5 arg6 harg6 hc1 hc2 x0 x1 x2).1) = k0_pay1 (k0_pay3 i x0 x1 x2) (k0_pay2 (F := F)) := by
  rw [View.read_writes_eq_canon _ _ _ (coverFirst c i arg2 harg2 arg3 harg3 arg4 harg4 arg5 harg5 arg6 harg6 x0 x1 x2 hc1 hc2)]
  unfold runFirst; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

/-- At a middle point the accumulator ends at what it held plus the tile's sum. -/
theorem accMiddle (hc1 : ¬isFirst i) (hc2 : ¬isLast i) :
    V11.read (Elt F) (V11.writes (Elt F) V11.junk (runMiddle c i arg2 harg2 arg3 harg3 arg4 harg4 arg5 harg5 arg6 harg6 hc1 hc2 x0 x1 x2 xs).1) = k0_pay1 (k0_pay3 i x0 x1 x2) xs := by
  rw [View.read_writes_eq_canon _ _ _ (coverMiddle c i arg2 harg2 arg3 harg3 arg4 harg4 arg5 harg5 arg6 harg6 x0 x1 x2 xs hc1 hc2)]
  unfold runMiddle; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

/-- At the last point likewise, -/
theorem accLast (hc1 : ¬isFirst i) (hc2 : isLast i) :
    V11.read (Elt F) (V11.writes (Elt F) V11.junk (runLast c i arg2 harg2 arg3 harg3 arg4 harg4 arg5 harg5 arg6 harg6 hc1 hc2 x0 x1 x2 xs).2.1) = k0_pay1 (k0_pay3 i x0 x1 x2) xs := by
  rw [View.read_writes_eq_canon _ _ _ (coverLastAcc c i arg2 harg2 arg3 harg3 arg4 harg4 arg5 harg5 arg6 harg6 x0 x1 x2 xs hc1 hc2)]
  unfold runLast; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

/-- and the result's buffer ends at the accumulator's new contents. -/
theorem outLast (hc1 : ¬isFirst i) (hc2 : isLast i) :
    V11.read (Elt F) (V11.writes (Elt F) V11.junk (runLast c i arg2 harg2 arg3 harg3 arg4 harg4 arg5 harg5 arg6 harg6 hc1 hc2 x0 x1 x2 xs).1) = k0_pay1 (k0_pay3 i x0 x1 x2) xs := by
  rw [View.read_writes_eq_canon _ _ _ (coverLastOut c i arg2 harg2 arg3 harg3 arg4 harg4 arg5 harg5 arg6 harg6 x0 x1 x2 xs hc1 hc2)]
  unfold runLast; dsimp only; sl_unfold_words
  first
    | rw [View.canon_cons_unit_zero (S := S1x1) zero2, View.readCov_unit_zero (S := S1x1) _ zero2]
    | rw [View.canon_cons_unit_zero (S := S1x1) zero2]
    | rw [View.canon_unit_zero (S := S1x1) zero2]
  simp only [View.readAt_eq_ld, harg2.read_unread, harg3.read_unread, harg4.read_unread, harg6.read_unread,
    View.ld_unit_zero (S := S512x768) zero2, View.ld_unit_zero (S := S512x512) zero2, View.ld_unit_zero (S := S1x1) zero2,
    View.readCov_unit_zero (S := S1x1) _ zero2]

end

end Cert.Kernel.Hand

end
-- ==== Proof.Bits.Obligation.lean ====
/-
  The pipeline's proof data and the body's obligation at every grid point.

  Between points the kernel keeps one thing: the 1×1 accumulator, which after n points holds the sum of the first n
  tiles' sums (zero before the first). The three input windows are only read, so each staging buffer holds its
  window's block at every point; windows 0 and 1 read the SAME array, the embedding table, so each holds half of
  it. The result's window is stored into at the last point only, where it receives the accumulator.
-/
import proofs.«181517_j23407571763518_1_alg».proof.Proof.Bits.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The accumulator after the first n grid points, over the windows' blocks: zero, then point by point the tile's
    sum added. -/
def accN (c : Dev nD) : ℕ → FVec F S1x1 .f32
  | 0 => k0_pay2
  | n + 1 => if h : n < cfg0.N then
      k0_pay1 (k0_pay3 (grid0.coords ⟨n, h⟩) (iblk m c 0 ⟨n, h⟩) (iblk m c 1 ⟨n, h⟩) (iblk m c 2 ⟨n, h⟩)) (accN c n)
    else accN c n

theorem accN_succ (c : Dev nD) (t : Fin cfg0.N) :
    accN m c (t.val + 1) = k0_pay1 (k0_pay3 (grid0.coords t) (iblk m c 0 t) (iblk m c 1 t) (iblk m c 2 t)) (accN m c t.val) := by
  obtain ⟨n, hn⟩ := t
  exact (dif_pos hn)

/-- The invariant before point n: at first the kernel's scratch at anything; afterwards the accumulator at the sum
    so far. -/
def PhiS (c : Dev nD) : ℕ → sProp 𝕄
  | 0 => Pipeline.scopedRest (Ix := Unit) (Name := ℕ) (U := UR sig nD τ) (Lvl := ℕ) (Val := Elt F) spec0 c
  | n + 1 => owns (c : Thread nD τ) accM fullShare (accN m c (n + 1))

theorem PhiS_pos (c : Dev nD) (n : ℕ) (hz : n ≠ 0) :
    PhiS m c n = owns (c : Thread nD τ) accM fullShare (accN m c n) := by
  cases n with
  | zero => exact absurd rfl hz
  | succ n => rfl

/-- The kernel's scratch at anything is the accumulator, as a memref, owned at some contents. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

/-- The proof data: the arrays as the region finds them; after the body each input's buffer at its block and the
    result's at the accumulator's new contents; the invariant above; the two readers of the embedding table at half
    of it each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accN m c (t.val + 1)
  Φ t := PhiS m c t.val
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accN m c (t.val + 1) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## Where the result's window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last point the body stores nothing into the result's buffer and the pipeline does not write it back; -/
theorem idle3 : ∀ t : Fin cfg0.N, ¬isLast (grid0.coords t) → cfg0.idle 3 (grid0.coords t) = true := by decide +kernel
theorem noFlush3 : ∀ t : Fin cfg0.N, ¬isLast (grid0.coords t) → (cfg0.win 3).flush t = false := by decide +kernel
/-- at the last point it does. -/
theorem live3 : ∀ t : Fin cfg0.N, isLast (grid0.coords t) → cfg0.idle 3 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

set_option maxHeartbeats 4000000 in
/-- The body at any point: by cases on whether the point is the first, the last, or neither. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    Phi_succ, Phi_castSucc, leaves0, leaves1, leaves2]
  have hN : t.val < 64 := lt_of_lt_of_eq t.isLt (show cfg0.N = 64 from N_0)
  by_cases h0 : t.val = 0
  · have hc1 : isFirst (grid0.coords t) := (isFirst_iff t).mpr h0
    have hc2 : ¬isLast (grid0.coords t) := fun h => by have := (isLast_iff t).mp h; omega
    rw [Dat.leavesExact_idle (dats m 0 c) 3 t (idle3 t hc2) (noFlush3 t hc2)]
    rw [h0, show PhiS m c 0 = Pipeline.scopedRest (Ix := Unit) (Name := ℕ) (U := UR sig nD τ) (Lvl := ℕ) (Val := Elt F) spec0 c from rfl, scratch_eq, PhiS_pos m c (0 + 1) (by omega)]
    rw [show accN m c (0 + 1) = accN m c (t.val + 1) from by rw [h0], accN_succ m c t, h0, show accN m c 0 = k0_pay2 from rfl]
    iintro ⟨HS, Ho, ⟨%d0, H0⟩, ⟨%d1, H1⟩, ⟨%d2, H2⟩, ⟨%d3, H3⟩⟩
    iapply ((runFirst c (grid0.coords t) (ms0 t) (hs0 t) (ms1 t) (hs1 t) (ms2 t) (hs2 t) (ms3 t) (hs3 t) accM (Memref.isWhole_whole _) hc1 hc2 (iblk m c 0 t) (iblk m c 1 t) (iblk m c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS]
    · unfold owns; iexists _; isplitr
      swap; · iexact HS
      ipureintro
      exact (View.read_writes_of_cover _ _ _ _ _ (coverFirst c (grid0.coords t) (ms0 t) (hs0 t) (ms1 t) (hs1 t) (ms2 t) (hs2 t) (ms3 t) (hs3 t) accM (Memref.isWhole_whole _) _ _ _ hc1 hc2)).trans (accFirst c (grid0.coords t) (ms0 t) (hs0 t) (ms1 t) (hs1 t) (ms2 t) (hs2 t) (ms3 t) (hs3 t) accM (Memref.isWhole_whole _) _ _ _ hc1 hc2)
    isplitl [Ho]; · iexact Ho
    isplitl [H0]; · iexact H0
    isplitl [H1]; · iexact H1
    isplitl [H2]; · iexact H2
    iexists _; iexact H3
  · have hc1 : ¬isFirst (grid0.coords t) := fun h => h0 ((isFirst_iff t).mp h)
    rw [PhiS_pos m c t.val h0, PhiS_pos m c (t.val + 1) (by omega), accN_succ m c t]
    by_cases h1 : t.val = 63
    · have hc2 : isLast (grid0.coords t) := (isLast_iff t).mpr h1
      rw [show (dats m 0 c).leavesExact 3 t = owns (c : Thread nD τ) (ms3 t) fullShare ((dats m 0 c).after 3 t) from by
        unfold Dat.leavesExact; rw [live3 t hc2], after3, accN_succ m c t]
      iintro ⟨HS, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) hc1 hc2 (iblk m c 0 t) (iblk m c 1 t) (iblk m c 2 t) (accN m c t.val)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS]
      · unfold owns; iexists _; isplitr
        swap; · iexact HS
        ipureintro
        exact (View.read_writes_of_cover _ _ _ _ _ (coverLastAcc c (grid0.coords t) (ms0 t) (hs0 t) (ms1 t) (hs1 t) (ms2 t) (hs2 t) (ms3 t) (hs3 t) accM (Memref.isWhole_whole _) _ _ _ _ hc1 hc2)).trans (accLast c (grid0.coords t) (ms0 t) (hs0 t) (ms1 t) (hs1 t) (ms2 t) (hs2 t) (ms3 t) (hs3 t) accM (Memref.isWhole_whole _) _ _ _ _ hc1 hc2)
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ _ _ _ (coverLastOut c (grid0.coords t) (ms0 t) (hs0 t) (ms1 t) (hs1 t) (ms2 t) (hs2 t) (ms3 t) (hs3 t) accM (Memref.isWhole_whole _) _ _ _ _ hc1 hc2)).trans (outLast c (grid0.coords t) (ms0 t) (hs0 t) (ms1 t) (hs1 t) (ms2 t) (hs2 t) (ms3 t) (hs3 t) accM (Memref.isWhole_whole _) _ _ _ _ hc1 hc2)
    · have hc2 : ¬isLast (grid0.coords t) := fun h => h1 ((isLast_iff t).mp h)
      rw [Dat.leavesExact_idle (dats m 0 c) 3 t (idle3 t hc2) (noFlush3 t hc2)]
      iintro ⟨HS, Ho, ⟨%d0, H0⟩, ⟨%d1, H1⟩, ⟨%d2, H2⟩, ⟨%d3, H3⟩⟩
      iapply ((runMiddle c (grid0.coords t) (ms0 t) (hs0 t) (ms1 t) (hs1 t) (ms2 t) (hs2 t) (ms3 t) (hs3 t) accM (Memref.isWhole_whole _) hc1 hc2 (iblk m c 0 t) (iblk m c 1 t) (iblk m c 2 t) (accN m c t.val)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro
        exact (View.read_writes_of_cover _ _ _ _ _ (coverMiddle c (grid0.coords t) (ms0 t) (hs0 t) (ms1 t) (hs1 t) (ms2 t) (hs2 t) (ms3 t) (hs3 t) accM (Memref.isWhole_whole _) _ _ _ _ hc1 hc2)).trans (accMiddle c (grid0.coords t) (ms0 t) (hs0 t) (ms1 t) (hs1 t) (ms2 t) (hs2 t) (ms3 t) (hs3 t) accM (Memref.isWhole_whole _) _ _ _ _ hc1 hc2)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Bits.RunMain.lean ====
/-
  The run of @main: the region, then the three host operations that take the 1×1 result to the scalar mean.
-/
import proofs.«181517_j23407571763518_1_alg».proof.Proof.Bits.Obligation
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_fresh : (hostOps1 : List (HloOp τ sig (Elt F))).Forall fun op => op.fresh = ∅ := by
  simp only [List.Forall]; repeat' constructor

/-- @main is the region continued by its three host operations. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] (by simp only [List.Forall]) (by simp only [List.Forall]) main_chain

/-- The two windows on the embedding table hold its two halves; the others their arrays outright. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The input arrays are never written. -/
theorem arrAt0 (c : Dev nD) (n : ℕ) : (dats m 0 c).arrAt 0 n = V m c main_arg0 := ((dats m 0 c).arrAt_in 0 rfl n).trans (A_eq m c 0)
theorem arrAt1 (c : Dev nD) (n : ℕ) : (dats m 0 c).arrAt 1 n = V m c main_arg0 := ((dats m 0 c).arrAt_in 1 rfl n).trans (A_eq m c 1)
theorem arrAt2 (c : Dev nD) (n : ℕ) : (dats m 0 c).arrAt 2 n = V m c main_arg1 := ((dats m 0 c).arrAt_in 2 rfl n).trans (A_eq m c 2)

/-- The pipeline's arrays at contents F, one window at a time, as whole buffers. -/
theorem arrays_four (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare} G 2) ∗ (((c : Thread nD τ).loc main_v0) ↦{fullShare} G 3)) := by
  unfold Dat.arrays
  rw [bigSep_W0]
  rw [(arr_whole0 0).set_eq_univ, (arr_whole0 2).set_eq_univ, (arr_whole0 3).set_eq_univ]
  rfl

/-- The three distinct buffers behind the four windows, one by one. -/
theorem arrBufs_three (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  rw [show Finset.univ.image (Pipeline.arrRef spec0) = {main_arg0, main_arg1, main_v0} from by decide,
    bigSep_insert (by decide), bigSep_insert (by decide), bigSep_singleton]
  rfl

/-- At entry: the embedding table, held whole, is split between its two readers. -/
theorem hsplit (c : Dev nD) : (Pipeline.arrBufs spec0 c (V m c) : sProp 𝕄) ⊢ (dats m 0 c).arrays ((dats m 0 c).arrAt · 0) := by
  rw [arrays_four, arrBufs_three]
  iintro ⟨H0, H1, H3⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  iexact H3

/-! ## The three host operations after the region -/

/-- The result array as the region leaves it. -/
abbrev outArr (c : Dev nD) : Buf (Elt F) ((c : Thread nD τ).loc main_v0) := (dats m 0 c).arrAt 3 cfg0.N

/-- The core's buffers at the region's exit, as far as the later lines read them: the launch contents, with the
    result array at what the region wrote. -/
def Wexit (c : Dev nD) : Valuation τ sig (Elt F) :=
  Function.update (fun b => m (c, b)) (Proc.devRef .tc main_v0) (outArr m c)

theorem Wexit_v0 (c : Dev nD) : Wexit m c (Proc.devRef .tc main_v0) = outArr m c := Function.update_self ..

/-- The four buffers the later lines touch: the result array and the three scalars they compute. -/
abbrev tailS : Finset (DevRef τ sig) :=
  {Proc.devRef .tc main_v0, Proc.devRef .tc main_v1, Proc.devRef .tc main_cst, Proc.devRef .tc main_v2}

theorem hostOps1_tailS : ∀ op ∈ (hostOps1 : List (HloOp τ sig (Elt F))), op.bufs ⊆ tailS := by
  intro op hop
  simp only [hostOps1, List.mem_cons, List.mem_nil_iff, or_false] at hop
  rcases hop with rfl | rfl | rfl
  · rw [StableHlo.reshape_bufs]; intro b hb; simp only [tailS, Finset.mem_insert, Finset.mem_singleton] at hb ⊢; tauto
  · rw [StableHlo.nullary_bufs]; intro b hb; simp only [tailS, Finset.mem_insert, Finset.mem_singleton] at hb ⊢; tauto
  · rw [StableHlo.binary_bufs]; intro b hb; simp only [tailS, Finset.mem_insert, Finset.mem_singleton] at hb ⊢; tauto

theorem held_tailS (c : Dev nD) (W : Valuation τ sig (Elt F)) :
    (StableHlo.held (Ix := Unit) (Name := ℕ) (U := UR sig nD τ) (Lvl := ℕ) (c : Thread nD τ) tailS W : sProp 𝕄)
      = iprop((((c : Thread nD τ).loc main_v0) ↦{fullShare} W (Proc.devRef .tc main_v0))
          ∗ (((c : Thread nD τ).loc main_v1) ↦{fullShare} W (Proc.devRef .tc main_v1))
          ∗ (((c : Thread nD τ).loc main_cst) ↦{fullShare} W (Proc.devRef .tc main_cst))
          ∗ (((c : Thread nD τ).loc main_v2) ↦{fullShare} W (Proc.devRef .tc main_v2))) := by
  unfold StableHlo.held
  rw [bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

/-- What the three scalars hold after the lines. -/
abbrev tailAt (c : Dev nD) (b : Ref sig .tc) : Buf (Elt F) ((c : Thread nD τ).loc b) :=
  StableHlo.after hostOps1 (Wexit m c) (Proc.devRef .tc b)

/-- The bypassing buffers after the lines. -/
def Zout (c : Dev nD) : sProp 𝕄 :=
  iprop((((c : Thread nD τ).loc main_v1) ↦{fullShare} tailAt m c main_v1)
      ∗ (((c : Thread nD τ).loc main_cst) ↦{fullShare} tailAt m c main_cst)
      ∗ (((c : Thread nD τ).loc main_v2) ↦{fullShare} tailAt m c main_v2))

/-- The lines do not write the result array. -/
theorem tail_keeps_v0 (c : Dev nD) : tailAt m c main_v0 = outArr m c := by
  unfold tailAt
  rw [StableHlo.after_of_forall_not_mem _ _ (fun op hop => by
    simp only [hostOps1, List.mem_cons, List.mem_nil_iff, or_false] at hop
    rcases hop with rfl | rfl | rfl <;>
      simp only [StableHlo.reshape_writes, StableHlo.nullary_writes, StableHlo.binary_writes, Finset.mem_singleton] <;>
      exact StableHlo.devRef_ne_of_ne (by decide)), Wexit_v0]

set_option maxHeartbeats 2000000 in
set_option backward.isDefEq.respectTransparency.types false in
/-- From the region's exit the three lines run, within the result array and the three scalars. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  have hp : (pure PUnit.unit : Prog (TpuEff nD τ sig (Elt F) (Pipeline.Sig Λ₀ (Fin 1) fun p => (pcfgs (F := F) p).Adm) .tc) PUnit) = .ret PUnit.unit := rfl
  rw [arrays_four, unscopedRest0_eq, Pipeline.chain_cons, Pipeline.chain_nil, hp]
  have hseq := StableHlo.wp_seq (Ix := Unit) (Name := ℕ) (U := UR sig nD τ) (Lvl := ℕ) (defs := defs (F := F)) (Variants.lift Variants.none) none Set.univ c tailS
    (fun _ => (.ret ⟨⟩ : Prog (TpuEff nD τ sig (Elt F) (Pipeline.Sig Λ₀ (Fin 1) fun p => (pcfgs (F := F) p).Adm) .tc) PUnit)) (K := Q')
    hostOps1 (hostOps1_tailS) (fun op hop => (List.forall_iff_forall_mem.mp hostOps1_fresh) op hop) (Wexit m c)
  rw [held_tailS, held_tailS, Wexit_v0, show StableHlo.after hostOps1 (Wexit m c) (Proc.devRef .tc main_v0) = outArr m c from tail_keeps_v0 m c, wp_ret] at hseq
  iintro ⟨Hk, Hbd, ⟨A0, A1, A2, A3⟩, ⟨R1, Rc, R2⟩⟩
  iapply hseq $$ [Hbd A3 R1 Rc R2]
  · isplitl [Hbd]; · iexact Hbd
    isplitl [A3]; · iexact A3
    isplitl [R1]; · iexact R1
    isplitl [Rc]; · iexact Rc
    iexact R2
  iintro ⟨Hbd, B0, B1, Bc, B2⟩
  imodintro
  iapply Hk
  isplitl [A0 A1 A2 B0]
  · isplitl [A0]; · iexact A0
    isplitl [A1]; · iexact A1
    isplitl [A2]; · iexact A2
    iexact B0
  unfold Zout
  isplitl [B1]; · iexact B1
  isplitl [Bc]; · iexact Bc
  iexact B2

/-! ## The run -/

/-- Before the first point the invariant is the kernel's scratch at anything. -/
theorem hin0 (c : Dev nD) :
    (Pipeline.scopedRest (Ix := Unit) (Name := ℕ) (U := UR sig nD τ) (Lvl := ℕ) (Val := Elt F) spec0 c : sProp 𝕄) ⊢ (dats m 0 c).Φ 0 :=
  BI.Entails.refl _

/-- At the last point the invariant gives the scratch back. -/
theorem hout (c : Dev nD) :
    (dats m 0 c).Φ (Fin.last cfg0.N)
      ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 64 := N_0; omega), scratch_eq]
  iintro H
  isplitr; · iempintro
  iexists _; iexact H

/-- What a final memory is known to hold: the scalar result at what the lines compute from the region's result, and the
    two argument arrays as launched. -/
def Post : PUnit × MemSt nD τ sig (Elt F) → Prop := fun r => ∀ c : Dev nD,
  r.2.mem ((c : Thread nD τ).loc main_v2) = tailAt m c main_v2
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- From any memory with every semaphore at zero, every weakly fair execution of @main terminates, faulting nowhere,
    in a state of that kind. -/
theorem run_main : θ_run defs (onTc (τ := τ) (main (F := F))) ⟨m, fun _ => 0, ρ⟩ (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Zout m)
    (hX := fun c => by
      rw [Pipeline.unscopedRestP_none]
      iintro H; isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, HR⟩; iexact HR).trans (hin0 m c))
    (hout := hout m)
    (htail := htail m)
    (QY := fun c s => s.mem ((c : Thread nD τ).loc main_v2) = tailAt m c main_v2)
    (hY := fun c s' => by
      unfold Zout
      iintro ⟨-, ⟨H1, Hc, H2⟩, HSI⟩
      imodintro
      ihave Hr := (pointsTo_read_all ({main_v2} : Finset (Ref sig .tc)) (fun b => (c : Thread nD τ).loc b) (fun b => tailAt m c b) s') $$ [H2 HSI]
      · rw [bigSep_singleton]; isplitl [H2] <;> iassumption
      icases Hr with ⟨%hr, HSI⟩
      isplitr; · ipureintro; exact hr main_v2 (Finset.mem_singleton_self _)
      iexact HSI)
    (hQ := fun s h c => ⟨(h c).2.2, ((h c).1 0).trans (arrAt0 m c _), ((h c).1 2).trans (arrAt2 m c _)⟩)

end Cert.Kernel.Hand

end
-- ==== Proof.lean ====
/-
  The certificate's claim: the tiled pairwise-distance loss kernel against its reference.

  Both programs compute, over the extended reals, the mean over ordered pairs r ≠ c of
  (‖e_r‖² + ‖e_c‖² − 2·⟨e_r, e_c⟩ − a(r, c))², for an embedding table e and target distances a. The reference does it
  on whole arrays, masking the diagonal by a factor 1 − [r = c]; the kernel walks the 8 × 8 grid of 512 × 512 tiles of
  the pair matrix, selects zero on the diagonal, and adds each tile's sum to a 1 × 1 accumulator that it zeroes at the
  first tile and hands to the result at the last. Only the order and grouping of one finite sum differ, and addition
  of extended reals is commutative and associative, so the two results agree with no appeal to finiteness.

  The kernel's two input windows on the embedding table (the tile's rows and the tile's columns) read one array; the
  run therefore holds that array as two half shares, split at the region's entry. The frame of the program as printed
  is the same run read at the word-level instance.
-/
import proofs.«181517_j23407571763518_1_alg».proof.Defs
import proofs.«181517_j23407571763518_1_alg».proof.Proof.Gen.Kernel
import proofs.«181517_j23407571763518_1_alg».proof.Proof.Gen.KernelIdeal
import proofs.«181517_j23407571763518_1_alg».proof.Proof.Gen.ReferenceIdeal
import proofs.«181517_j23407571763518_1_alg».proof.Proof.Gen.Pre_finite_inputs
import proofs.«181517_j23407571763518_1_alg».proof.Proof.Gen.ReferenceIdeal.Run
import proofs.«181517_j23407571763518_1_alg».proof.Proof.Gen.ReferenceIdeal.Read
import proofs.«181517_j23407571763518_1_alg».proof.Proof.RefIsSpec
import proofs.«181517_j23407571763518_1_alg».proof.Proof.Value
import proofs.«181517_j23407571763518_1_alg».proof.Proof.Bits.RunMain
import Idealize.ShloMosaic.Adequacy
import Idealize.ShloMosaic.Init

noncomputable section

namespace Cert.Proof

open Idealize.ShloMosaic Idealize.ShloMosaic.TcCoe Idealize.SL.Sem

/-- The program as printed runs to the end and leaves its arguments as they were. -/
theorem frame_k : Cert.frame_Kernel := fun m ρ _ =>
  (θ_run Cert.Kernel.defs _ _).mono (fun _ h c => ⟨(h c).2.1, (h c).2.2⟩) (Cert.Kernel.Hand.run_main (F := Bits) m ρ)

/-- So does its idealization, -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- and the reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two arguments both programs end with the mean pair loss of those arguments. -/
theorem algebraic : Cert.algebraic_KernelIdeal_ReferenceIdeal := by
  intro m ρ m' ρ' _ hagree
  refine ⟨fun c => fun _ => Cert.Spec.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨((h c).1).trans (Cert.KernelIdeal.Hand.kernel_value m c), (h c).2.1, (h c).2.2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, Cert.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
